-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  reducesTo_S_S_d : S_.ReducesTo [] S_

variable [Facts]

def fn {F : FTy → Type} [FloatOps F] (main_arg0 : FVec F S4x8192x3 .f32) (main_arg1 : FVec F S4x8192x3 .f32) (main_arg2 : FVec F S_ .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4x8192x3 : Shape := ⟨3, ![4, 8192, 3]⟩
abbrev S_ : Shape := ⟨0, ![]⟩
abbrev S4x3x8192 : Shape := ⟨3, ![4, 3, 8192]⟩
abbrev S4x1x8192 : Shape := ⟨3, ![4, 1, 8192]⟩
abbrev S1x3x2048 : Shape := ⟨3, ![1, 3, 2048]⟩
abbrev S1x3x1024 : Shape := ⟨3, ![1, 3, 1024]⟩
abbrev S1x1x2048 : Shape := ⟨3, ![1, 1, 2048]⟩
abbrev S1x1x8192 : Shape := ⟨3, ![1, 1, 8192]⟩
abbrev S3x2048 : Shape := ⟨2, ![3, 2048]⟩
abbrev S3x1024 : Shape := ⟨2, ![3, 1024]⟩
abbrev S2048 : Shape := ⟨1, ![2048]⟩
abbrev S1024 : Shape := ⟨1, ![1024]⟩
abbrev S2048x1024 : Shape := ⟨2, ![2048, 1024]⟩
abbrev S2048x1 : Shape := ⟨2, ![2048, 1]⟩
abbrev S1x1024 : Shape := ⟨2, ![1, 1024]⟩
abbrev S1x1x1024 : Shape := ⟨3, ![1, 1, 1024]⟩
abbrev S4x8192 : Shape := ⟨2, ![4, 8192]⟩
abbrev S4 : Shape := ⟨1, ![4]⟩

abbrev nBuf : Space → Nat
  | .hbm => 30
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x3x8192, .f32⟩
  | .hbm, ⟨4, _⟩ => ⟨S4x3x8192, .f32⟩
  | .hbm, ⟨5, _⟩ => ⟨S4x1x8192, .f32⟩
  | .hbm, ⟨6, _⟩ => ⟨S4x1x8192, .f32⟩
  | .hbm, ⟨7, _⟩ => ⟨S4x8192, .f32⟩
  | .hbm, ⟨8, _⟩ => ⟨S4x8192, .f32⟩
  | .hbm, ⟨9, _⟩ => ⟨S4x8192, .f32⟩
  | .hbm, ⟨10, _⟩ => ⟨S4x8192, .i1⟩
  | .hbm, ⟨11, _⟩ => ⟨S_, .f32⟩
  | .hbm, ⟨12, _⟩ => ⟨S4x8192, .f32⟩
  | .hbm, ⟨13, _⟩ => ⟨S4x8192, .f32⟩
  | .hbm, ⟨14, _⟩ => ⟨S4x8192, .f32⟩
  | .hbm, ⟨15, _⟩ => ⟨S4x8192, .i1⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .local _ .vmem, ⟨0, _⟩ => ⟨S1x3x2048, .f32⟩
  | .local _ .vmem, ⟨1, _⟩ => ⟨S1x3x2048, .f32⟩
  | .local _ .vmem, ⟨2, _⟩ => ⟨S1x3x1024, .f32⟩
  | .local _ .vmem, ⟨3, _⟩ => ⟨S1x3x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x1x8192, .f32⟩
  | .local _ .vmem, ⟨7, _⟩ => ⟨S1x1x8192, .f32⟩
  | .local _ .vmem, ⟨8, _⟩ => ⟨S1x1x2048, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call1_v0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v35 : BitVec 32 := Scalar.muli arg2 c1024_i32
  v35
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v35 : BitVec 32 := Scalar.muli arg2 c1024_i32
  let v36 : BitVec 32 := v35
  let v37 : Index := Scalar.indexCast v36
  ![0, 0, v37.toNat]
def k0_cond3 (i : grid0.Coords) : BitVec 1 :=
  let arg2 : BitVec 32 := BitVec.ofNat 32 (i 2).val
  let c7_i32 : BitVec 32 := 7#32
  let v45 : BitVec 1 := Scalar.cmpi .eq arg2 c7_i32
  let v46 : BitVec 32 := Scalar.extui v45
  let c0_i32_24 : BitVec 32 := 0#32
  let v47 : BitVec 1 := Scalar.cmpi .ne v46 c0_i32_24
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x1x8192_S1x1x8192_0_0_0 : ∀ a, (![0, 0, 0] : Fin 3 → Nat) a + S1x1x8192.size a ≤ S1x1x8192.size a
  h_S1x1x8192 : 0 < S1x1x8192.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x2048_S2048 : S3x2048.Reduces [0] S2048
  reduces_S3x1024_S1024 : S3x1024.Reduces [0] S1024
  bitsLt_bf16_f32 : FTy.bits .bf16 < FTy.bits .f32
  shapeCasts_S2048_S2048x1 : S2048.ShapeCasts S2048x1
  shapeCasts_S1024_S1x1024 : S1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S1x1x2048 : S2048.ShapeCasts S1x1x2048
  reduces_S2048x1024_S1024 : S2048x1024.Reduces [0] S1024
  h_S1x1x1024 : 0 < S1x1x1024.numel
  shapeCasts_S1x1x1024_S1024 : S1x1x1024.ShapeCasts S1024
  shapeCasts_S1024_S1x1x1024 : S1024.ShapeCasts S1x1x1024
  shapeCasts_S4x1x8192_S4x8192 : S4x1x8192.ShapeCasts S4x8192
  bcast_S_S4x8192 : S_.BroadcastsInDim S4x8192 (![] : Fin 0 → Fin S4x8192.rank)
  reducesTo_S4x8192_S4_d1 : S4x8192.ReducesTo [1] S4
  h_S_ : 0 < S_.numel
  bcast_S_S4 : S_.BroadcastsInDim S4 (![] : Fin 0 → Fin S4.rank)
  dot_S3x2048_S3x1024_S2048x1024_0_0_1_1_n_n_wf : DotDims.WF S3x2048 S3x1024 S2048x1024 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S4x3x8192.size a
  hwx0_0 : ∀ i : grid0.Coords, EltTy.bits .f32 = 32 ∨ (Rect.block (s := S4x3x8192) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x8192.size a
  hwx0_2 : ∀ i : grid0.Coords, EltTy.bits .f32 = 32 ∨ (Rect.block (s := S4x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S3x2048_S3x1024_S2048x1024_0_0_1_1_n_n : DotDims S3x2048 S3x1024 S2048x1024 where
  lhsContracting := [0]
  rhsContracting := [0]
  lhsNonContracting := [1]
  rhsNonContracting := [1]
  lhsBatch := []
  rhsBatch := []
  wf := dot_S3x2048_S3x1024_S2048x1024_0_0_1_1_n_n_wf

abbrev win0_0 : Pipeline.Window sig grid0 :=
  Pipeline.Window.ofSpec (Memref.whole main_v0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun _ => false | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S4x8192, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  bcast_S_S4x8192 : S_.BroadcastsInDim S4x8192 (![] : Fin 0 → Fin S4x8192.rank)
  reducesTo_S4x8192_S4_d1 : S4x8192.ReducesTo [1] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Cases.lean ====
/-
  The grid of the one pallas_call is 4 × 4 × 8 (batch b, row tile i, column tile j), walked with j fastest: point
  t = 32·b + 8·i + j. The body branches three times on the coordinates:
    * "a new batch"   (i = 0 and j = 0, the points ≡ 0 mod 32): the resident column-minimum block is reset to +∞;
    * "a new row tile" (j = 0, the points ≡ 0 mod 8): the row-minimum accumulator is reset to +∞;
    * "the last column tile" (j = 7, the points ≡ 7 mod 8): the accumulator is copied to the row-minimum block.
  The grid meets four of the eight assignments: new batch (t ≡ 0 mod 32), new row tile only (t ≡ 0 mod 8, not mod 32),
  last column tile (t ≡ 7 mod 8), and none of the three. This module states the three conditions as the body spells
  them, decides them over the grid in closed form, and names the staging memrefs the pipeline hands the body.
-/
import proofs.«401845_j56616258895922_3_alg».proof.Proof.Gen.Kernel.Launch
import proofs.«401845_j56616258895922_3_alg».proof.Proof.Gen.Kernel.Skeleton
import proofs.«401845_j56616258895922_3_alg».proof.Proof.Gen.Kernel.Points
import proofs.«401845_j56616258895922_3_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "A new batch": the body's first branch, as it computes it from the coordinates. -/
abbrev newBatch (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 32). -/
theorem newBatch_iff : ∀ t : Fin cfg0.N, newBatch (grid0.coords t) ↔ t.val % 32 = 0 :=
  (by decide +kernel : ∀ t : Fin grid0.N, newBatch (grid0.coords t) ↔ t.val % 32 = 0)

/-- "A new row tile": the second branch. -/
abbrev newRows (i : grid0.Coords) : Prop := (Scalar.cmpi .ne (Scalar.extui (Scalar.cmpi .eq (BitVec.ofNat 32 (i 2).val) 0#32)) 0#32) = 1#1
/-- It holds at the points ≡ 0 (mod 8). -/
theorem newRows_iff : ∀ t : Fin cfg0.N, newRows (grid0.coords t) ↔ t.val % 8 = 0 :=
  (by decide +kernel : ∀ t : Fin grid0.N, newRows (grid0.coords t) ↔ t.val % 8 = 0)

/-- "The last column tile": the third branch. -/
abbrev lastCols (i : grid0.Coords) : Prop := k0_cond3 i = 1#1
/-- It holds at the points ≡ 7 (mod 8). -/
theorem lastCols_iff : ∀ t : Fin cfg0.N, lastCols (grid0.coords t) ↔ t.val % 8 = 7 :=
  (by decide +kernel : ∀ t : Fin grid0.N, lastCols (grid0.coords t) ↔ t.val % 8 = 7)

/-- The two inputs are never idle; -/
theorem live0 : ∀ t : Fin cfg0.N, cfg0.idle 0 (grid0.coords t) = false := by decide +kernel
theorem live1 : ∀ t : Fin cfg0.N, cfg0.idle 1 (grid0.coords t) = false := by decide +kernel
/-- the row-minimum block is idle exactly off the last column tile; -/
theorem idle2_iff : ∀ t : Fin cfg0.N, cfg0.idle 2 (grid0.coords t) = true ↔ ¬ t.val % 8 = 7 :=
  (by decide +kernel : ∀ t : Fin grid0.N, cfg0.idle 2 (grid0.coords t) = true ↔ ¬ t.val % 8 = 7)
/-- the column-minimum block never. -/
theorem live3 : ∀ t : Fin cfg0.N, cfg0.idle 3 (grid0.coords t) = false := by decide +kernel

/-- Each window's current staging memref at point `t`, as the pipeline passes it to the body, and its wholeness. -/
abbrev stg0 (t : Fin cfg0.N) : Memref sig .tc .vmem S1x3x2048 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x3x1024 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1x2048 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x1x8192 .f32 := win0_3.stage (cfg0.slots t 3)
abbrev hstg3 (t : Fin cfg0.N) : (stg3 t).IsWhole := hstage0_3 ((cfg0.slots t 3).cast nbuf0_3)
/-- The row-minimum accumulator: a whole scoped buffer of the kernel's own, carried from point to point. -/
abbrev accM : Memref sig .tc .vmem S1x1x2048 .f32 := Memref.whole cc0_scratch0

/-- The launch's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.K.RunBatch.lean ====
/-
  The body at the first point of a batch (row tile 0, column tile 0): it resets the resident column-minimum block
  and the accumulator to +∞, then folds the tile's row minima into the accumulator and its column minima into
  stretch 0 of the block. Whatever the two buffers held before is overwritten, so the run takes them at anything.
-/
import proofs.«401845_j56616258895922_3_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the stores leave in the column-minimum block (first) and in the accumulator (second) at the first point
    of a batch, with the proof that the body runs to the continuation so. -/
noncomputable def runBatch (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : newBatch i) (h1 : newRows i) (h2 : ¬lastCols i)
    (x0 : Vec F S1x3x2048 .f32) (x1 : Vec F S1x3x1024 .f32) :
    { L : List (View.Piece (Elt F) S1x1x8192 .f32) × List (View.Piece (Elt F) S1x1x2048 .f32) //
      ∀ (x2 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_⟩, fun x2 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    isplitl [H3]
    · iexists _; iexact H3
    iexists _; iexact HS

end Cert.Kernel.Body

end
-- ==== Proof.K.RunRows.lean ====
/-
  The body at the first column tile of a later row tile of a batch (j = 0, i > 0): it resets the accumulator to +∞,
  folds the tile's row minima into it, and folds the tile's column minima into stretch 0 of the resident
  column-minimum block, which it finds at given contents.
-/
import proofs.«401845_j56616258895922_3_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the stores leave in the column-minimum block (first) and in the accumulator (second) at the first
    column tile of a later row tile, with the proof that the body runs to the continuation so. -/
noncomputable def runRows (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : newRows i) (h2 : ¬lastCols i)
    (x0 : Vec F S1x3x2048 .f32) (x1 : Vec F S1x3x1024 .f32) (xo : Vec F S1x1x8192 .f32) :
    { L : List (View.Piece (Elt F) S1x1x8192 .f32) × List (View.Piece (Elt F) S1x1x2048 .f32) //
      ∀ (x2 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) (harg6.unread xo) L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_⟩, fun x2 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg6.eq_unread hf3
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    isplitl [H3]
    · iexact H3
    iexists _; iexact HS

end Cert.Kernel.Body

end
-- ==== Proof.K.RunMid.lean ====
/-
  The body at a point where none of its three branches is taken (a column tile j with 0 < j < 7): it folds the
  tile's row minima into the accumulator and the tile's column minima into stretch j of the resident
  column-minimum block, and leaves the row-minimum block alone. The run is stated on any whole memrefs: the two
  input blocks, the row-minimum block, the column-minimum block and the accumulator each at given contents; it ends
  with the inputs and the row-minimum block as they were and the other two rewritten by the lists of pieces the run
  finds (last store first).
-/
import proofs.«401845_j56616258895922_3_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the column-minimum block (first component) and in the accumulator
    (second), at a point of no branch, with the proof that the body runs to the continuation so. -/
noncomputable def runMid (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : ¬newRows i) (h2 : ¬lastCols i)
    (x0 : Vec F S1x3x2048 .f32) (x1 : Vec F S1x3x1024 .f32) (xo : Vec F S1x1x8192 .f32) (xs : Vec F S1x1x2048 .f32) :
    { L : List (View.Piece (Elt F) S1x1x8192 .f32) × List (View.Piece (Elt F) S1x1x2048 .f32) //
      ∀ (x2 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) (harg6.unread xo) L.1)
                ∗ (arg7.view.loc (c : Thread nD τ) ↦[arg7.view.set]{fullShare} arg7.view.writes (Elt F) (harg7.unread xs) L.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_⟩, fun x2 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg6.eq_unread hf3; obtain rfl := harg7.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    isplitl [H3]
    · iexact H3
    iexact HS

end Cert.Kernel.Body

end
-- ==== Proof.K.RunLast.lean ====
/-
  The body at the last column tile of a row tile (j = 7): it folds the tile's row minima into the accumulator and the
  tile's column minima into stretch 7 of the resident column-minimum block, both found at given contents, and then
  copies the accumulator into the row-minimum block, whatever that held.
-/
import proofs.«401845_j56616258895922_3_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the stores leave in the row-minimum block (first), the column-minimum block (second) and the
    accumulator (third) at the last column tile, with the proof that the body runs to the continuation so. -/
noncomputable def runLast (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : ¬newRows i) (h2 : lastCols i)
    (x0 : Vec F S1x3x2048 .f32) (x1 : Vec F S1x3x1024 .f32) (xo : Vec F S1x1x8192 .f32) (xs : Vec F S1x1x2048 .f32) :
    { L : List (View.Piece (Elt F) S1x1x2048 .f32) × List (View.Piece (Elt F) S1x1x8192 .f32) × List (View.Piece (Elt F) S1x1x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xo) L.2.1)
                ∗ (arg7.view.loc (c : Thread nD τ) ↦[arg7.view.set]{fullShare} arg7.view.writes (Elt F) (harg7.unread xs) L.2.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_, ?_⟩, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg3.eq_unread hf0; obtain rfl := harg4.eq_unread hf1; obtain rfl := harg6.eq_unread hf3; obtain rfl := harg7.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexact H3
    iexact HS

end Cert.Kernel.Body

end
-- ==== Proof.K.Data.lean ====
/-
  What the kernel's buffers hold point by point, and the run of the whole program from it.

  Two buffers live across grid points: the accumulator of row minima (reset at the first column tile of every row
  tile) and the staging buffer of the column-minimum block, which stays resident for the 32 points of a batch (reset
  at the batch's first point, written back after its last). `stAt` gives the pair of their contents after the body at
  point n, by recursion over the points: the run of the point's case (Cases.lean) applied to what the point before
  left. The row-minimum block's buffer matters only at the last column tile of a row tile, where the body copies the
  accumulator into it and the pipeline writes it back (`rowAt`); elsewhere the body does not touch it.
  With these as the proof data, the body obligation at a generic point is a case split on the point's residues, each
  case the corresponding run; the pipeline's launch theorem then gives the run of @main, the host operations after
  the region included, and the frame claim follows by reading the argument arrays off its post.
-/
import proofs.«401845_j56616258895922_3_alg».proof.Proof.K.RunBatch
import proofs.«401845_j56616258895922_3_alg».proof.Proof.K.RunRows
import proofs.«401845_j56616258895922_3_alg».proof.Proof.K.RunMid
import proofs.«401845_j56616258895922_3_alg».proof.Proof.K.RunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the column-minimum block's buffer and of the accumulator, together. -/
abbrev St (F : FTy → Type) : Type := Vec F S1x1x8192 .f32 × Vec F S1x1x2048 .f32

/-! ## The stores of each case cover what must not depend on earlier contents -/

/-- At the first point of a batch the block is stored whole (the reset), so the stores cover it; -/
theorem batch_cover3 (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : newBatch i) (h1 : newRows i) (h2 : ¬lastCols i)
    (x0 : Vec F S1x3x2048 .f32) (x1 : Vec F S1x3x1024 .f32) (y : S1x1x8192.Idx) :
    ∃ pc ∈ (runBatch c i arg3 harg3 arg4 harg4 arg5 harg5 arg6 harg6 arg7 harg7 h0 h1 h2 x0 x1).1.1, y ∈ pc.1.set :=
  View.cover_of_wholeMem _ (by sl_whole_mem) y
/-- and so is the accumulator, there -/
theorem batch_coverS (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : newBatch i) (h1 : newRows i) (h2 : ¬lastCols i)
    (x0 : Vec F S1x3x2048 .f32) (x1 : Vec F S1x3x1024 .f32) (y : S1x1x2048.Idx) :
    ∃ pc ∈ (runBatch c i arg3 harg3 arg4 harg4 arg5 harg5 arg6 harg6 arg7 harg7 h0 h1 h2 x0 x1).1.2, y ∈ pc.1.set :=
  View.cover_of_wholeMem _ (by sl_whole_mem) y
/-- and at the first column tile of a later row tile. -/
theorem rows_coverS (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : newRows i) (h2 : ¬lastCols i)
    (x0 : Vec F S1x3x2048 .f32) (x1 : Vec F S1x3x1024 .f32) (xo : Vec F S1x1x8192 .f32) (y : S1x1x2048.Idx) :
    ∃ pc ∈ (runRows c i arg3 harg3 arg4 harg4 arg5 harg5 arg6 harg6 arg7 harg7 h0 h1 h2 x0 x1 xo).1.2, y ∈ pc.1.set :=
  View.cover_of_wholeMem _ (by sl_whole_mem) y
/-- At the last column tile the row-minimum block is stored whole. -/
theorem last_cover2 (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : ¬newRows i) (h2 : lastCols i)
    (x0 : Vec F S1x3x2048 .f32) (x1 : Vec F S1x3x1024 .f32) (xo : Vec F S1x1x8192 .f32) (xs : Vec F S1x1x2048 .f32) (y : S1x1x2048.Idx) :
    ∃ pc ∈ (runLast c i arg3 harg3 arg4 harg4 arg5 harg5 arg6 harg6 arg7 harg7 h0 h1 h2 x0 x1 xo xs).1.1, y ∈ pc.1.set :=
  View.cover_of_wholeMem _ (by sl_whole_mem) y

/-! ## What each case leaves -/

/-- The first point of a batch: both buffers from scratch. -/
def batchOut (c : Dev nD) (t : Fin cfg0.N) (h0 : t.val % 32 = 0) (h1 : t.val % 8 = 0) (h2 : ¬t.val % 8 = 7) : St F :=
  ((stg3 t).view.read (Elt F) ((stg3 t).view.writes (Elt F) (stg3 t).view.junk (runBatch c (grid0.coords t) (stg0 t) (hstg0 t) (stg1 t) (hstg1 t) (stg2 t) (hstg2 t) (stg3 t) (hstg3 t) accM (Memref.isWhole_whole _) ((newBatch_iff t).mpr h0) ((newRows_iff t).mpr h1) (fun h => h2 ((lastCols_iff t).mp h)) (iblk m c 0 t) (iblk m c 1 t)).1.1),
   accM.view.read (Elt F) (accM.view.writes (Elt F) accM.view.junk (runBatch c (grid0.coords t) (stg0 t) (hstg0 t) (stg1 t) (hstg1 t) (stg2 t) (hstg2 t) (stg3 t) (hstg3 t) accM (Memref.isWhole_whole _) ((newBatch_iff t).mpr h0) ((newRows_iff t).mpr h1) (fun h => h2 ((lastCols_iff t).mp h)) (iblk m c 0 t) (iblk m c 1 t)).1.2))

/-- The first column tile of a later row tile: the block over what it held, the accumulator from scratch. -/
def rowsOut (c : Dev nD) (t : Fin cfg0.N) (h0 : ¬t.val % 32 = 0) (h1 : t.val % 8 = 0) (h2 : ¬t.val % 8 = 7) (xo : Vec F S1x1x8192 .f32) : St F :=
  ((stg3 t).view.read (Elt F) ((stg3 t).view.writes (Elt F) ((hstg3 t).unread xo) (runRows c (grid0.coords t) (stg0 t) (hstg0 t) (stg1 t) (hstg1 t) (stg2 t) (hstg2 t) (stg3 t) (hstg3 t) accM (Memref.isWhole_whole _) (fun h => h0 ((newBatch_iff t).mp h)) ((newRows_iff t).mpr h1) (fun h => h2 ((lastCols_iff t).mp h)) (iblk m c 0 t) (iblk m c 1 t) xo).1.1),
   accM.view.read (Elt F) (accM.view.writes (Elt F) accM.view.junk (runRows c (grid0.coords t) (stg0 t) (hstg0 t) (stg1 t) (hstg1 t) (stg2 t) (hstg2 t) (stg3 t) (hstg3 t) accM (Memref.isWhole_whole _) (fun h => h0 ((newBatch_iff t).mp h)) ((newRows_iff t).mpr h1) (fun h => h2 ((lastCols_iff t).mp h)) (iblk m c 0 t) (iblk m c 1 t) xo).1.2))

/-- A column tile strictly inside: both over what they held. -/
def midOut (c : Dev nD) (t : Fin cfg0.N) (h0 : ¬t.val % 32 = 0) (h1 : ¬t.val % 8 = 0) (h2 : ¬t.val % 8 = 7) (xo : Vec F S1x1x8192 .f32) (xs : Vec F S1x1x2048 .f32) : St F :=
  ((stg3 t).view.read (Elt F) ((stg3 t).view.writes (Elt F) ((hstg3 t).unread xo) (runMid c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) (fun h => h2 ((lastCols_iff t).mp h)) (iblk m c 0 t) (iblk m c 1 t) xo xs).1.1),
   accM.view.read (Elt F) (accM.view.writes (Elt F) ((Memref.isWhole_whole cc0_scratch0).unread xs) (runMid c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) (fun h => h2 ((lastCols_iff t).mp h)) (iblk m c 0 t) (iblk m c 1 t) xo xs).1.2))

/-- The last column tile: both over what they held; -/
def lastOut (c : Dev nD) (t : Fin cfg0.N) (h0 : ¬t.val % 32 = 0) (h1 : ¬t.val % 8 = 0) (h2 : t.val % 8 = 7) (xo : Vec F S1x1x8192 .f32) (xs : Vec F S1x1x2048 .f32) : St F :=
  ((stg3 t).view.read (Elt F) ((stg3 t).view.writes (Elt F) ((hstg3 t).unread xo) (runLast c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) ((lastCols_iff t).mpr h2) (iblk m c 0 t) (iblk m c 1 t) xo xs).1.2.1),
   accM.view.read (Elt F) (accM.view.writes (Elt F) ((Memref.isWhole_whole cc0_scratch0).unread xs) (runLast c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) ((lastCols_iff t).mpr h2) (iblk m c 0 t) (iblk m c 1 t) xo xs).1.2.2))

/-- and the row-minimum block's buffer there, stored whole. -/
def lastRow (c : Dev nD) (t : Fin cfg0.N) (h0 : ¬t.val % 32 = 0) (h1 : ¬t.val % 8 = 0) (h2 : t.val % 8 = 7) (xo : Vec F S1x1x8192 .f32) (xs : Vec F S1x1x2048 .f32) : Vec F S1x1x2048 .f32 :=
  (stg2 t).view.read (Elt F) ((stg2 t).view.writes (Elt F) (stg2 t).view.junk (runLast c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) ((lastCols_iff t).mpr h2) (iblk m c 0 t) (iblk m c 1 t) xo xs).1.1)

/-! ## Point by point -/

/-- The two carried buffers after the body at point `n`: the point's case over what the point before left. -/
def stAt (c : Dev nD) : (n : ℕ) → n < cfg0.N → St F
  | 0, hn => batchOut m c ⟨0, hn⟩ (Nat.zero_mod _) (Nat.zero_mod _) (show ¬(0 % 8 = 7) from by decide)
  | n + 1, hn =>
    if h0 : (n + 1) % 32 = 0 then
      batchOut m c ⟨n + 1, hn⟩ h0 (show (n + 1) % 8 = 0 from by omega) (show ¬(n + 1) % 8 = 7 from by omega)
    else
      if h1 : (n + 1) % 8 = 0 then
        rowsOut m c ⟨n + 1, hn⟩ h0 h1 (show ¬(n + 1) % 8 = 7 from by omega) (stAt c n (Nat.lt_of_succ_lt hn)).1
      else
        if h2 : (n + 1) % 8 = 7 then
          lastOut m c ⟨n + 1, hn⟩ h0 h1 h2 (stAt c n (Nat.lt_of_succ_lt hn)).1 (stAt c n (Nat.lt_of_succ_lt hn)).2
        else
          midOut m c ⟨n + 1, hn⟩ h0 h1 h2 (stAt c n (Nat.lt_of_succ_lt hn)).1 (stAt c n (Nat.lt_of_succ_lt hn)).2

theorem stAt_batch (c : Dev nD) (t : Fin cfg0.N) (h0 : t.val % 32 = 0) (h1 : t.val % 8 = 0) (h2 : ¬t.val % 8 = 7) :
    stAt m c t.val t.isLt = batchOut m c t h0 h1 h2 := by
  obtain ⟨n, hn⟩ := t
  cases n with
  | zero => rfl
  | succ n => exact (dif_pos h0).trans rfl

theorem stAt_rows (c : Dev nD) (t : Fin cfg0.N) (h0 : ¬t.val % 32 = 0) (h1 : t.val % 8 = 0) (h2 : ¬t.val % 8 = 7) :
    stAt m c t.val t.isLt = rowsOut m c t h0 h1 h2 (stAt m c (t.val - 1) (Nat.lt_of_le_of_lt (Nat.sub_le _ _) t.isLt)).1 := by
  obtain ⟨n, hn⟩ := t
  cases n with
  | zero => exact absurd (Nat.zero_mod _) h0
  | succ n => exact (dif_neg h0).trans ((dif_pos h1).trans rfl)

theorem stAt_last (c : Dev nD) (t : Fin cfg0.N) (h0 : ¬t.val % 32 = 0) (h1 : ¬t.val % 8 = 0) (h2 : t.val % 8 = 7) :
    stAt m c t.val t.isLt = lastOut m c t h0 h1 h2 (stAt m c (t.val - 1) (Nat.lt_of_le_of_lt (Nat.sub_le _ _) t.isLt)).1 (stAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans ((dif_pos h2).trans rfl))

theorem stAt_mid (c : Dev nD) (t : Fin cfg0.N) (h0 : ¬t.val % 32 = 0) (h1 : ¬t.val % 8 = 0) (h2 : ¬t.val % 8 = 7) :
    stAt m c t.val t.isLt = midOut m c t h0 h1 h2 (stAt m c (t.val - 1) (Nat.lt_of_le_of_lt (Nat.sub_le _ _) t.isLt)).1 (stAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans ((dif_neg h2).trans rfl))

/-- The row-minimum block's buffer after the body at point `t`: at a last column tile the accumulator's copy; elsewhere
    the body leaves it alone and nothing reads this value. -/
def rowAt (c : Dev nD) (t : Fin cfg0.N) : Vec F S1x1x2048 .f32 :=
  if h2 : t.val % 8 = 7 then
    lastRow m c t (by omega) (by omega) h2 (stAt m c (t.val - 1) (Nat.lt_of_le_of_lt (Nat.sub_le _ _) t.isLt)).1 (stAt m c (t.val - 1) (Nat.lt_of_le_of_lt (Nat.sub_le _ _) t.isLt)).2
  else (stg2 t).view.read (Elt F) (stg2 t).view.junk

theorem rowAt_last (c : Dev nD) (t : Fin cfg0.N) (h0 : ¬t.val % 32 = 0) (h1 : ¬t.val % 8 = 0) (h2 : t.val % 8 = 7) :
    rowAt m c t = lastRow m c t h0 h1 h2 (stAt m c (t.val - 1) (Nat.lt_of_le_of_lt (Nat.sub_le _ _) t.isLt)).1 (stAt m c (t.val - 1) (Nat.lt_of_le_of_lt (Nat.sub_le _ _) t.isLt)).2 := by
  unfold rowAt; rw [dif_pos h2]

/-! ## The invariant between points: the accumulator at what the point before left -/

def PhiS (c : Dev nD) : (n : ℕ) → n ≤ cfg0.N → sProp 𝕄
  | 0, _ => Pipeline.ΦA spec0 c
  | n + 1, hn => iprop(iprop(owns (c : Thread nD τ) accM fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stAt m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t
    | ⟨3, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = rowAt m c t := by dsimp only [dats]
theorem after3 (c : Dev nD) (t : Fin cfg0.N) : (dats m 0 c).after 3 t = (stAt m c t.val t.isLt).1 := by dsimp only [dats]

/-- Each input's buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Off the first point of a batch the column-minimum block's buffer holds what the point before left: it is not
    written back in between (that happens only after a batch's last point). -/
theorem before3 (c : Dev nD) (t : Fin cfg0.N) (h0 : ¬t.val % 32 = 0) (d) :
    (dats m 0 c).before 3 t d = (stAt m c (t.val - 1) (Nat.lt_of_le_of_lt (Nat.sub_le _ _) t.isLt)).1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- What the obligation asks of each buffer after the body. -/
theorem leaves0 (c : Dev nD) (t : Fin cfg0.N) :
    (dats m 0 c).leavesExact 0 t = owns (c : Thread nD τ) (stg0 t) fullShare (iblk m c 0 t) := by
  unfold Dat.leavesExact; rw [live0 t, after0]
theorem leaves1 (c : Dev nD) (t : Fin cfg0.N) :
    (dats m 0 c).leavesExact 1 t = owns (c : Thread nD τ) (stg1 t) fullShare (iblk m c 1 t) := by
  unfold Dat.leavesExact; rw [live1 t, after1]
theorem leaves3 (c : Dev nD) (t : Fin cfg0.N) :
    (dats m 0 c).leavesExact 3 t = owns (c : Thread nD τ) (stg3 t) fullShare (stAt m c t.val t.isLt).1 := by
  unfold Dat.leavesExact; rw [live3 t, after3]
/-- The row-minimum block off a last column tile is handed back as found; -/
theorem leaves2_idle (c : Dev nD) (t : Fin cfg0.N) (h2 : ¬t.val % 8 = 7) :
    (dats m 0 c).leavesExact 2 t = iprop(∃ d, owns (c : Thread nD τ) (stg2 t) fullShare ((dats m 0 c).before 2 t d)) :=
  Dat.leavesExact_idle _ 2 t ((idle2_iff t).mpr h2) (Bool.eq_false_iff.mpr fun h => h2 ((flush0_2 t).mp h))
/-- at one, it holds the accumulator's copy. -/
theorem leaves2_last (c : Dev nD) (t : Fin cfg0.N) (h2 : t.val % 8 = 7) :
    (dats m 0 c).leavesExact 2 t = owns (c : Thread nD τ) (stg2 t) fullShare (rowAt m c t) := by
  unfold Dat.leavesExact
  rw [show cfg0.idle 2 (grid0.coords t) = false from Bool.eq_false_iff.mpr fun h => (idle2_iff t).mp h h2, after2]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 6400000 in
/-- The body at any point: the inputs' buffers hold their blocks; the residues of the point say which case it is in; off
    a batch's first point the column-minimum block's buffer holds what the point before left, and off a row tile's
    first column tile so does the accumulator (the invariant); so the case's run applies, and what it leaves is
    `stAt` (and `rowAt` at a last column tile) by their defining equations. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves3]
  have hN : t.val < 128 := lt_of_lt_of_eq t.isLt (show cfg0.N = 128 from N_0)
  by_cases h0 : t.val % 32 = 0
  · have h1 : t.val % 8 = 0 := by omega
    have h2 : ¬t.val % 8 = 7 := by omega
    rw [leaves2_idle m c t h2, stAt_batch m c t h0 h1 h2]
    unfold batchOut; dsimp only
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runBatch c (grid0.coords t) _ _ _ _ _ _ _ _ _ _ ((newBatch_iff t).mpr h0) ((newRows_iff t).mpr h1) (fun h => h2 ((lastCols_iff t).mp h)) (iblk m c 0 t) (iblk m c 1 t)).2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (batch_coverS c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (batch_cover3 c _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runBatch c (grid0.coords t) _ _ _ _ _ _ _ _ _ _ ((newBatch_iff t).mpr h0) ((newRows_iff t).mpr h1) (fun h => h2 ((lastCols_iff t).mp h)) (iblk m c 0 t) (iblk m c 1 t)).2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (batch_coverS c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (batch_cover3 c _ _ _ _ _ _ _ _ _ _ _ _ _ _ _ _)
  · have hz : t.val ≠ 0 := fun h => h0 (by rw [h])
    rw [PhiS_castSucc m c t, PhiS_pos m c _ _ hz]
    simp only [before3 m c t h0]
    by_cases h1 : t.val % 8 = 0
    · have h2 : ¬t.val % 8 = 7 := by omega
      rw [leaves2_idle m c t h2, stAt_rows m c t h0 h1 h2]
      unfold rowsOut; dsimp only
      iintro ⟨⟨HS, Hg⟩, Ho, ⟨%d0, H0⟩, ⟨%d1, H1⟩, ⟨%d2, H2⟩, ⟨%d3, H3⟩⟩
      iapply ((runRows c (grid0.coords t) _ _ _ _ _ _ _ _ _ _ (fun h => h0 ((newBatch_iff t).mp h)) ((newRows_iff t).mpr h1) (fun h => h2 ((lastCols_iff t).mp h)) (iblk m c 0 t) (iblk m c 1 t) _).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (rows_coverS c _ _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; rfl
    · by_cases h2 : t.val % 8 = 7
      · rw [leaves2_last m c t h2, rowAt_last m c t h0 h1 h2, stAt_last m c t h0 h1 h2]
        unfold lastOut lastRow; dsimp only
        iintro ⟨⟨HS, Hg⟩, Ho, ⟨%d0, H0⟩, ⟨%d1, H1⟩, ⟨%d2, H2⟩, ⟨%d3, H3⟩⟩
        iapply ((runLast c (grid0.coords t) _ _ _ _ _ _ _ _ _ _ (fun h => h0 ((newBatch_iff t).mp h)) (fun h => h1 ((newRows_iff t).mp h)) ((lastCols_iff t).mpr h2) (iblk m c 0 t) (iblk m c 1 t) _ _).2 Set.univ _)
        isplitl [H0]; · iexact H0
        isplitl [H1]; · iexact H1
        isplitl [H2]; · iexists _; iexact H2
        isplitl [H3]; · iexact H3
        isplitl [HS]; · iexact HS
        iintro ⟨H0, H1, ⟨%e2, H2⟩, H3, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (last_cover2 c _ _ _ _ _ _ _ _ _ _ _ _ _ _ _ _ _ _)
        unfold owns; iexists _; isplitr
        swap; · iexact H3
        ipureintro; rfl
      · rw [leaves2_idle m c t h2, stAt_mid m c t h0 h1 h2]
        unfold midOut; dsimp only
        iintro ⟨⟨HS, Hg⟩, Ho, ⟨%d0, H0⟩, ⟨%d1, H1⟩, ⟨%d2, H2⟩, ⟨%d3, H3⟩⟩
        iapply ((runMid c (grid0.coords t) _ _ _ _ _ _ _ _ _ _ (fun h => h0 ((newBatch_iff t).mp h)) (fun h => h1 ((newRows_iff t).mp h)) (fun h => h2 ((lastCols_iff t).mp h)) (iblk m c 0 t) (iblk m c 1 t) _ _).2 _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        isplitl [H2]; · iexists _; iexact H2
        unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's named contents are forgotten. -/
theorem hout (c : Dev nD) : (dats m 0 c).Φ (Fin.last cfg0.N) ⊢ Pipeline.ΦA spec0 c := by
  have hl : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what
    the write-backs of the proof data leave and every other buffer at what the host operations after the region
    compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-- The frame claim at any float family: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Cases.lean ====
/-
  The grid of the one pallas_call is 4 × 4 × 8 (batch b, row tile i, column tile j), walked with j fastest: point
  t = 32·b + 8·i + j. The body branches three times on the coordinates:
    * "a new batch"   (i = 0 and j = 0, the points ≡ 0 mod 32): the resident column-minimum block is reset to +∞;
    * "a new row tile" (j = 0, the points ≡ 0 mod 8): the row-minimum accumulator is reset to +∞;
    * "the last column tile" (j = 7, the points ≡ 7 mod 8): the accumulator is copied to the row-minimum block.
  The grid meets four of the eight assignments: new batch (t ≡ 0 mod 32), new row tile only (t ≡ 0 mod 8, not mod 32),
  last column tile (t ≡ 7 mod 8), and none of the three. This module states the three conditions as the body spells
  them, decides them over the grid in closed form, and names the staging memrefs the pipeline hands the body.
-/
import proofs.«401845_j56616258895922_3_alg».proof.Proof.Gen.KernelIdeal.Launch
import proofs.«401845_j56616258895922_3_alg».proof.Proof.Gen.KernelIdeal.Skeleton
import proofs.«401845_j56616258895922_3_alg».proof.Proof.Gen.KernelIdeal.Points
import proofs.«401845_j56616258895922_3_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "A new batch": the body's first branch, as it computes it from the coordinates. -/
abbrev newBatch (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 32). -/
theorem newBatch_iff : ∀ t : Fin cfg0.N, newBatch (grid0.coords t) ↔ t.val % 32 = 0 :=
  (by decide +kernel : ∀ t : Fin grid0.N, newBatch (grid0.coords t) ↔ t.val % 32 = 0)

/-- "A new row tile": the second branch. -/
abbrev newRows (i : grid0.Coords) : Prop := (Scalar.cmpi .ne (Scalar.extui (Scalar.cmpi .eq (BitVec.ofNat 32 (i 2).val) 0#32)) 0#32) = 1#1
/-- It holds at the points ≡ 0 (mod 8). -/
theorem newRows_iff : ∀ t : Fin cfg0.N, newRows (grid0.coords t) ↔ t.val % 8 = 0 :=
  (by decide +kernel : ∀ t : Fin grid0.N, newRows (grid0.coords t) ↔ t.val % 8 = 0)

/-- "The last column tile": the third branch. -/
abbrev lastCols (i : grid0.Coords) : Prop := k0_cond3 i = 1#1
/-- It holds at the points ≡ 7 (mod 8). -/
theorem lastCols_iff : ∀ t : Fin cfg0.N, lastCols (grid0.coords t) ↔ t.val % 8 = 7 :=
  (by decide +kernel : ∀ t : Fin grid0.N, lastCols (grid0.coords t) ↔ t.val % 8 = 7)

/-- The two inputs are never idle; -/
theorem live0 : ∀ t : Fin cfg0.N, cfg0.idle 0 (grid0.coords t) = false := by decide +kernel
theorem live1 : ∀ t : Fin cfg0.N, cfg0.idle 1 (grid0.coords t) = false := by decide +kernel
/-- the row-minimum block is idle exactly off the last column tile; -/
theorem idle2_iff : ∀ t : Fin cfg0.N, cfg0.idle 2 (grid0.coords t) = true ↔ ¬ t.val % 8 = 7 :=
  (by decide +kernel : ∀ t : Fin grid0.N, cfg0.idle 2 (grid0.coords t) = true ↔ ¬ t.val % 8 = 7)
/-- the column-minimum block never. -/
theorem live3 : ∀ t : Fin cfg0.N, cfg0.idle 3 (grid0.coords t) = false := by decide +kernel

/-- Each window's current staging memref at point `t`, as the pipeline passes it to the body, and its wholeness. -/
abbrev stg0 (t : Fin cfg0.N) : Memref sig .tc .vmem S1x3x2048 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x3x1024 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1x2048 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x1x8192 .f32 := win0_3.stage (cfg0.slots t 3)
abbrev hstg3 (t : Fin cfg0.N) : (stg3 t).IsWhole := hstage0_3 ((cfg0.slots t 3).cast nbuf0_3)
/-- The row-minimum accumulator: a whole scoped buffer of the kernel's own, carried from point to point. -/
abbrev accM : Memref sig .tc .vmem S1x1x2048 .f32 := Memref.whole cc0_scratch0

/-- The launch's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.KI.RunBatch.lean ====
/-
  The body at the first point of a batch (row tile 0, column tile 0): it resets the resident column-minimum block
  and the accumulator to +∞, then folds the tile's row minima into the accumulator and its column minima into
  stretch 0 of the block. Whatever the two buffers held before is overwritten, so the run takes them at anything.
-/
import proofs.«401845_j56616258895922_3_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the stores leave in the column-minimum block (first) and in the accumulator (second) at the first point
    of a batch, with the proof that the body runs to the continuation so. -/
noncomputable def runBatch (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : newBatch i) (h1 : newRows i) (h2 : ¬lastCols i)
    (x0 : Vec F S1x3x2048 .f32) (x1 : Vec F S1x3x1024 .f32) :
    { L : List (View.Piece (Elt F) S1x1x8192 .f32) × List (View.Piece (Elt F) S1x1x2048 .f32) //
      ∀ (x2 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_⟩, fun x2 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    isplitl [H3]
    · iexists _; iexact H3
    iexists _; iexact HS

end Cert.KernelIdeal.Body

end
-- ==== Proof.KI.RunRows.lean ====
/-
  The body at the first column tile of a later row tile of a batch (j = 0, i > 0): it resets the accumulator to +∞,
  folds the tile's row minima into it, and folds the tile's column minima into stretch 0 of the resident
  column-minimum block, which it finds at given contents.
-/
import proofs.«401845_j56616258895922_3_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the stores leave in the column-minimum block (first) and in the accumulator (second) at the first
    column tile of a later row tile, with the proof that the body runs to the continuation so. -/
noncomputable def runRows (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : newRows i) (h2 : ¬lastCols i)
    (x0 : Vec F S1x3x2048 .f32) (x1 : Vec F S1x3x1024 .f32) (xo : Vec F S1x1x8192 .f32) :
    { L : List (View.Piece (Elt F) S1x1x8192 .f32) × List (View.Piece (Elt F) S1x1x2048 .f32) //
      ∀ (x2 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) (harg6.unread xo) L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_⟩, fun x2 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg6.eq_unread hf3
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    isplitl [H3]
    · iexact H3
    iexists _; iexact HS

end Cert.KernelIdeal.Body

end
-- ==== Proof.KI.RunMid.lean ====
/-
  The body at a point where none of its three branches is taken (a column tile j with 0 < j < 7): it folds the
  tile's row minima into the accumulator and the tile's column minima into stretch j of the resident
  column-minimum block, and leaves the row-minimum block alone. The run is stated on any whole memrefs: the two
  input blocks, the row-minimum block, the column-minimum block and the accumulator each at given contents; it ends
  with the inputs and the row-minimum block as they were and the other two rewritten by the lists of pieces the run
  finds (last store first).
-/
import proofs.«401845_j56616258895922_3_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the column-minimum block (first component) and in the accumulator
    (second), at a point of no branch, with the proof that the body runs to the continuation so. -/
noncomputable def runMid (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : ¬newRows i) (h2 : ¬lastCols i)
    (x0 : Vec F S1x3x2048 .f32) (x1 : Vec F S1x3x1024 .f32) (xo : Vec F S1x1x8192 .f32) (xs : Vec F S1x1x2048 .f32) :
    { L : List (View.Piece (Elt F) S1x1x8192 .f32) × List (View.Piece (Elt F) S1x1x2048 .f32) //
      ∀ (x2 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) (harg6.unread xo) L.1)
                ∗ (arg7.view.loc (c : Thread nD τ) ↦[arg7.view.set]{fullShare} arg7.view.writes (Elt F) (harg7.unread xs) L.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_⟩, fun x2 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg6.eq_unread hf3; obtain rfl := harg7.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact hf2
      iexact H2
    isplitl [H3]
    · iexact H3
    iexact HS

end Cert.KernelIdeal.Body

end
-- ==== Proof.KI.RunLast.lean ====
/-
  The body at the last column tile of a row tile (j = 7): it folds the tile's row minima into the accumulator and the
  tile's column minima into stretch 7 of the resident column-minimum block, both found at given contents, and then
  copies the accumulator into the row-minimum block, whatever that held.
-/
import proofs.«401845_j56616258895922_3_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the stores leave in the row-minimum block (first), the column-minimum block (second) and the
    accumulator (third) at the last column tile, with the proof that the body runs to the continuation so. -/
noncomputable def runLast (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : ¬newRows i) (h2 : lastCols i)
    (x0 : Vec F S1x3x2048 .f32) (x1 : Vec F S1x3x1024 .f32) (xo : Vec F S1x1x8192 .f32) (xs : Vec F S1x1x2048 .f32) :
    { L : List (View.Piece (Elt F) S1x1x2048 .f32) × List (View.Piece (Elt F) S1x1x8192 .f32) × List (View.Piece (Elt F) S1x1x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xo) L.2.1)
                ∗ (arg7.view.loc (c : Thread nD τ) ↦[arg7.view.set]{fullShare} arg7.view.writes (Elt F) (harg7.unread xs) L.2.2)) -∗ K ⟨⟩))
          ⊢ wp frame (wpE (defs₀ (F := F)) Variants.none c none) E (cc0__fused_kernel i arg3 harg3 arg4 harg4 arg5 harg5 arg6 harg6 arg7 harg7) K } := by
  refine ⟨⟨?_, ?_, ?_⟩, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg3.eq_unread hf0; obtain rfl := harg4.eq_unread hf1; obtain rfl := harg6.eq_unread hf3; obtain rfl := harg7.eq_unread hfs
    sl_exec (disch := first | exact h0 | exact h1 | exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexact H3
    iexact HS

end Cert.KernelIdeal.Body

end
-- ==== Proof.KI.Data.lean ====
/-
  What the kernel's buffers hold point by point, and the run of the whole program from it.

  Two buffers live across grid points: the accumulator of row minima (reset at the first column tile of every row
  tile) and the staging buffer of the column-minimum block, which stays resident for the 32 points of a batch (reset
  at the batch's first point, written back after its last). `stAt` gives the pair of their contents after the body at
  point n, by recursion over the points: the run of the point's case (Cases.lean) applied to what the point before
  left. The row-minimum block's buffer matters only at the last column tile of a row tile, where the body copies the
  accumulator into it and the pipeline writes it back (`rowAt`); elsewhere the body does not touch it.
  With these as the proof data, the body obligation at a generic point is a case split on the point's residues, each
  case the corresponding run; the pipeline's launch theorem then gives the run of @main, the host operations after
  the region included, and the frame claim follows by reading the argument arrays off its post.
-/
import proofs.«401845_j56616258895922_3_alg».proof.Proof.KI.RunBatch
import proofs.«401845_j56616258895922_3_alg».proof.Proof.KI.RunRows
import proofs.«401845_j56616258895922_3_alg».proof.Proof.KI.RunMid
import proofs.«401845_j56616258895922_3_alg».proof.Proof.KI.RunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the column-minimum block's buffer and of the accumulator, together. -/
abbrev St (F : FTy → Type) : Type := Vec F S1x1x8192 .f32 × Vec F S1x1x2048 .f32

/-! ## The stores of each case cover what must not depend on earlier contents -/

/-- At the first point of a batch the block is stored whole (the reset), so the stores cover it; -/
theorem batch_cover3 (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : newBatch i) (h1 : newRows i) (h2 : ¬lastCols i)
    (x0 : Vec F S1x3x2048 .f32) (x1 : Vec F S1x3x1024 .f32) (y : S1x1x8192.Idx) :
    ∃ pc ∈ (runBatch c i arg3 harg3 arg4 harg4 arg5 harg5 arg6 harg6 arg7 harg7 h0 h1 h2 x0 x1).1.1, y ∈ pc.1.set :=
  View.cover_of_wholeMem _ (by sl_whole_mem) y
/-- and so is the accumulator, there -/
theorem batch_coverS (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : newBatch i) (h1 : newRows i) (h2 : ¬lastCols i)
    (x0 : Vec F S1x3x2048 .f32) (x1 : Vec F S1x3x1024 .f32) (y : S1x1x2048.Idx) :
    ∃ pc ∈ (runBatch c i arg3 harg3 arg4 harg4 arg5 harg5 arg6 harg6 arg7 harg7 h0 h1 h2 x0 x1).1.2, y ∈ pc.1.set :=
  View.cover_of_wholeMem _ (by sl_whole_mem) y
/-- and at the first column tile of a later row tile. -/
theorem rows_coverS (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : newRows i) (h2 : ¬lastCols i)
    (x0 : Vec F S1x3x2048 .f32) (x1 : Vec F S1x3x1024 .f32) (xo : Vec F S1x1x8192 .f32) (y : S1x1x2048.Idx) :
    ∃ pc ∈ (runRows c i arg3 harg3 arg4 harg4 arg5 harg5 arg6 harg6 arg7 harg7 h0 h1 h2 x0 x1 xo).1.2, y ∈ pc.1.set :=
  View.cover_of_wholeMem _ (by sl_whole_mem) y
/-- At the last column tile the row-minimum block is stored whole. -/
theorem last_cover2 (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (h0 : ¬newBatch i) (h1 : ¬newRows i) (h2 : lastCols i)
    (x0 : Vec F S1x3x2048 .f32) (x1 : Vec F S1x3x1024 .f32) (xo : Vec F S1x1x8192 .f32) (xs : Vec F S1x1x2048 .f32) (y : S1x1x2048.Idx) :
    ∃ pc ∈ (runLast c i arg3 harg3 arg4 harg4 arg5 harg5 arg6 harg6 arg7 harg7 h0 h1 h2 x0 x1 xo xs).1.1, y ∈ pc.1.set :=
  View.cover_of_wholeMem _ (by sl_whole_mem) y

/-! ## What each case leaves -/

/-- The first point of a batch: both buffers from scratch. -/
def batchOut (c : Dev nD) (t : Fin cfg0.N) (h0 : t.val % 32 = 0) (h1 : t.val % 8 = 0) (h2 : ¬t.val % 8 = 7) : St F :=
  ((stg3 t).view.read (Elt F) ((stg3 t).view.writes (Elt F) (stg3 t).view.junk (runBatch c (grid0.coords t) (stg0 t) (hstg0 t) (stg1 t) (hstg1 t) (stg2 t) (hstg2 t) (stg3 t) (hstg3 t) accM (Memref.isWhole_whole _) ((newBatch_iff t).mpr h0) ((newRows_iff t).mpr h1) (fun h => h2 ((lastCols_iff t).mp h)) (iblk m c 0 t) (iblk m c 1 t)).1.1),
   accM.view.read (Elt F) (accM.view.writes (Elt F) accM.view.junk (runBatch c (grid0.coords t) (stg0 t) (hstg0 t) (stg1 t) (hstg1 t) (stg2 t) (hstg2 t) (stg3 t) (hstg3 t) accM (Memref.isWhole_whole _) ((newBatch_iff t).mpr h0) ((newRows_iff t).mpr h1) (fun h => h2 ((lastCols_iff t).mp h)) (iblk m c 0 t) (iblk m c 1 t)).1.2))

/-- The first column tile of a later row tile: the block over what it held, the accumulator from scratch. -/
def rowsOut (c : Dev nD) (t : Fin cfg0.N) (h0 : ¬t.val % 32 = 0) (h1 : t.val % 8 = 0) (h2 : ¬t.val % 8 = 7) (xo : Vec F S1x1x8192 .f32) : St F :=
  ((stg3 t).view.read (Elt F) ((stg3 t).view.writes (Elt F) ((hstg3 t).unread xo) (runRows c (grid0.coords t) (stg0 t) (hstg0 t) (stg1 t) (hstg1 t) (stg2 t) (hstg2 t) (stg3 t) (hstg3 t) accM (Memref.isWhole_whole _) (fun h => h0 ((newBatch_iff t).mp h)) ((newRows_iff t).mpr h1) (fun h => h2 ((lastCols_iff t).mp h)) (iblk m c 0 t) (iblk m c 1 t) xo).1.1),
   accM.view.read (Elt F) (accM.view.writes (Elt F) accM.view.junk (runRows c (grid0.coords t) (stg0 t) (hstg0 t) (stg1 t) (hstg1 t) (stg2 t) (hstg2 t) (stg3 t) (hstg3 t) accM (Memref.isWhole_whole _) (fun h => h0 ((newBatch_iff t).mp h)) ((newRows_iff t).mpr h1) (fun h => h2 ((lastCols_iff t).mp h)) (iblk m c 0 t) (iblk m c 1 t) xo).1.2))

/-- A column tile strictly inside: both over what they held. -/
def midOut (c : Dev nD) (t : Fin cfg0.N) (h0 : ¬t.val % 32 = 0) (h1 : ¬t.val % 8 = 0) (h2 : ¬t.val % 8 = 7) (xo : Vec F S1x1x8192 .f32) (xs : Vec F S1x1x2048 .f32) : St F :=
  ((stg3 t).view.read (Elt F) ((stg3 t).view.writes (Elt F) ((hstg3 t).unread xo) (runMid c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) (fun h => h2 ((lastCols_iff t).mp h)) (iblk m c 0 t) (iblk m c 1 t) xo xs).1.1),
   accM.view.read (Elt F) (accM.view.writes (Elt F) ((Memref.isWhole_whole cc0_scratch0).unread xs) (runMid c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) (fun h => h2 ((lastCols_iff t).mp h)) (iblk m c 0 t) (iblk m c 1 t) xo xs).1.2))

/-- The last column tile: both over what they held; -/
def lastOut (c : Dev nD) (t : Fin cfg0.N) (h0 : ¬t.val % 32 = 0) (h1 : ¬t.val % 8 = 0) (h2 : t.val % 8 = 7) (xo : Vec F S1x1x8192 .f32) (xs : Vec F S1x1x2048 .f32) : St F :=
  ((stg3 t).view.read (Elt F) ((stg3 t).view.writes (Elt F) ((hstg3 t).unread xo) (runLast c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) ((lastCols_iff t).mpr h2) (iblk m c 0 t) (iblk m c 1 t) xo xs).1.2.1),
   accM.view.read (Elt F) (accM.view.writes (Elt F) ((Memref.isWhole_whole cc0_scratch0).unread xs) (runLast c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) ((lastCols_iff t).mpr h2) (iblk m c 0 t) (iblk m c 1 t) xo xs).1.2.2))

/-- and the row-minimum block's buffer there, stored whole. -/
def lastRow (c : Dev nD) (t : Fin cfg0.N) (h0 : ¬t.val % 32 = 0) (h1 : ¬t.val % 8 = 0) (h2 : t.val % 8 = 7) (xo : Vec F S1x1x8192 .f32) (xs : Vec F S1x1x2048 .f32) : Vec F S1x1x2048 .f32 :=
  (stg2 t).view.read (Elt F) ((stg2 t).view.writes (Elt F) (stg2 t).view.junk (runLast c (grid0.coords t) (stg0 t) (hstg0 t) (stg1 t) (hstg1 t) (stg2 t) (hstg2 t) (stg3 t) (hstg3 t) accM (Memref.isWhole_whole _) (fun h => h0 ((newBatch_iff t).mp h)) (fun h => h1 ((newRows_iff t).mp h)) ((lastCols_iff t).mpr h2) (iblk m c 0 t) (iblk m c 1 t) xo xs).1.1)

/-! ## Point by point -/

/-- The two carried buffers after the body at point `n`: the point's case over what the point before left. -/
def stAt (c : Dev nD) : (n : ℕ) → n < cfg0.N → St F
  | 0, hn => batchOut m c ⟨0, hn⟩ (Nat.zero_mod _) (Nat.zero_mod _) (show ¬(0 % 8 = 7) from by decide)
  | n + 1, hn =>
    if h0 : (n + 1) % 32 = 0 then
      batchOut m c ⟨n + 1, hn⟩ h0 (show (n + 1) % 8 = 0 from by omega) (show ¬(n + 1) % 8 = 7 from by omega)
    else
      if h1 : (n + 1) % 8 = 0 then
        rowsOut m c ⟨n + 1, hn⟩ h0 h1 (show ¬(n + 1) % 8 = 7 from by omega) (stAt c n (Nat.lt_of_succ_lt hn)).1
      else
        if h2 : (n + 1) % 8 = 7 then
          lastOut m c ⟨n + 1, hn⟩ h0 h1 h2 (stAt c n (Nat.lt_of_succ_lt hn)).1 (stAt c n (Nat.lt_of_succ_lt hn)).2
        else
          midOut m c ⟨n + 1, hn⟩ h0 h1 h2 (stAt c n (Nat.lt_of_succ_lt hn)).1 (stAt c n (Nat.lt_of_succ_lt hn)).2

theorem stAt_batch (c : Dev nD) (t : Fin cfg0.N) (h0 : t.val % 32 = 0) (h1 : t.val % 8 = 0) (h2 : ¬t.val % 8 = 7) :
    stAt m c t.val t.isLt = batchOut m c t h0 h1 h2 := by
  obtain ⟨n, hn⟩ := t
  cases n with
  | zero => rfl
  | succ n => exact (dif_pos h0).trans rfl

theorem stAt_rows (c : Dev nD) (t : Fin cfg0.N) (h0 : ¬t.val % 32 = 0) (h1 : t.val % 8 = 0) (h2 : ¬t.val % 8 = 7) :
    stAt m c t.val t.isLt = rowsOut m c t h0 h1 h2 (stAt m c (t.val - 1) (Nat.lt_of_le_of_lt (Nat.sub_le _ _) t.isLt)).1 := by
  obtain ⟨n, hn⟩ := t
  cases n with
  | zero => exact absurd (Nat.zero_mod _) h0
  | succ n => exact (dif_neg h0).trans ((dif_pos h1).trans rfl)

theorem stAt_last (c : Dev nD) (t : Fin cfg0.N) (h0 : ¬t.val % 32 = 0) (h1 : ¬t.val % 8 = 0) (h2 : t.val % 8 = 7) :
    stAt m c t.val t.isLt = lastOut m c t h0 h1 h2 (stAt m c (t.val - 1) (Nat.lt_of_le_of_lt (Nat.sub_le _ _) t.isLt)).1 (stAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans ((dif_pos h2).trans rfl))

theorem stAt_mid (c : Dev nD) (t : Fin cfg0.N) (h0 : ¬t.val % 32 = 0) (h1 : ¬t.val % 8 = 0) (h2 : ¬t.val % 8 = 7) :
    stAt m c t.val t.isLt = midOut m c t h0 h1 h2 (stAt m c (t.val - 1) (Nat.lt_of_le_of_lt (Nat.sub_le _ _) t.isLt)).1 (stAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans ((dif_neg h2).trans rfl))

/-- The row-minimum block's buffer after the body at point `t`: at a last column tile the accumulator's copy; elsewhere
    the body leaves it alone and nothing reads this value. -/
def rowAt (c : Dev nD) (t : Fin cfg0.N) : Vec F S1x1x2048 .f32 :=
  if h2 : t.val % 8 = 7 then
    lastRow m c t (by omega) (by omega) h2 (stAt m c (t.val - 1) (Nat.lt_of_le_of_lt (Nat.sub_le _ _) t.isLt)).1 (stAt m c (t.val - 1) (Nat.lt_of_le_of_lt (Nat.sub_le _ _) t.isLt)).2
  else (stg2 t).view.read (Elt F) (stg2 t).view.junk

theorem rowAt_last (c : Dev nD) (t : Fin cfg0.N) (h0 : ¬t.val % 32 = 0) (h1 : ¬t.val % 8 = 0) (h2 : t.val % 8 = 7) :
    rowAt m c t = lastRow m c t h0 h1 h2 (stAt m c (t.val - 1) (Nat.lt_of_le_of_lt (Nat.sub_le _ _) t.isLt)).1 (stAt m c (t.val - 1) (Nat.lt_of_le_of_lt (Nat.sub_le _ _) t.isLt)).2 := by
  unfold rowAt; rw [dif_pos h2]

/-! ## The invariant between points: the accumulator at what the point before left -/

def PhiS (c : Dev nD) : (n : ℕ) → n ≤ cfg0.N → sProp 𝕄
  | 0, _ => Pipeline.ΦA spec0 c
  | n + 1, hn => iprop(iprop(owns (c : Thread nD τ) accM fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stAt m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t
    | ⟨3, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = rowAt m c t := by dsimp only [dats]
theorem after3 (c : Dev nD) (t : Fin cfg0.N) : (dats m 0 c).after 3 t = (stAt m c t.val t.isLt).1 := by dsimp only [dats]

/-- Each input's buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Off the first point of a batch the column-minimum block's buffer holds what the point before left: it is not
    written back in between (that happens only after a batch's last point). -/
theorem before3 (c : Dev nD) (t : Fin cfg0.N) (h0 : ¬t.val % 32 = 0) (d) :
    (dats m 0 c).before 3 t d = (stAt m c (t.val - 1) (Nat.lt_of_le_of_lt (Nat.sub_le _ _) t.isLt)).1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- What the obligation asks of each buffer after the body. -/
theorem leaves0 (c : Dev nD) (t : Fin cfg0.N) :
    (dats m 0 c).leavesExact 0 t = owns (c : Thread nD τ) (stg0 t) fullShare (iblk m c 0 t) := by
  unfold Dat.leavesExact; rw [live0 t, after0]
theorem leaves1 (c : Dev nD) (t : Fin cfg0.N) :
    (dats m 0 c).leavesExact 1 t = owns (c : Thread nD τ) (stg1 t) fullShare (iblk m c 1 t) := by
  unfold Dat.leavesExact; rw [live1 t, after1]
theorem leaves3 (c : Dev nD) (t : Fin cfg0.N) :
    (dats m 0 c).leavesExact 3 t = owns (c : Thread nD τ) (stg3 t) fullShare (stAt m c t.val t.isLt).1 := by
  unfold Dat.leavesExact; rw [live3 t, after3]
/-- The row-minimum block off a last column tile is handed back as found; -/
theorem leaves2_idle (c : Dev nD) (t : Fin cfg0.N) (h2 : ¬t.val % 8 = 7) :
    (dats m 0 c).leavesExact 2 t = iprop(∃ d, owns (c : Thread nD τ) (stg2 t) fullShare ((dats m 0 c).before 2 t d)) :=
  Dat.leavesExact_idle _ 2 t ((idle2_iff t).mpr h2) (Bool.eq_false_iff.mpr fun h => h2 ((flush0_2 t).mp h))
/-- at one, it holds the accumulator's copy. -/
theorem leaves2_last (c : Dev nD) (t : Fin cfg0.N) (h2 : t.val % 8 = 7) :
    (dats m 0 c).leavesExact 2 t = owns (c : Thread nD τ) (stg2 t) fullShare (rowAt m c t) := by
  unfold Dat.leavesExact
  rw [show cfg0.idle 2 (grid0.coords t) = false from Bool.eq_false_iff.mpr fun h => (idle2_iff t).mp h h2, after2]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 6400000 in
/-- The body at any point: the inputs' buffers hold their blocks; the residues of the point say which case it is in; off
    a batch's first point the column-minimum block's buffer holds what the point before left, and off a row tile's
    first column tile so does the accumulator (the invariant); so the case's run applies, and what it leaves is
    `stAt` (and `rowAt` at a last column tile) by their defining equations. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves3]
  have hN : t.val < 128 := lt_of_lt_of_eq t.isLt (show cfg0.N = 128 from N_0)
  by_cases h0 : t.val % 32 = 0
  · have h1 : t.val % 8 = 0 := by omega
    have h2 : ¬t.val % 8 = 7 := by omega
    rw [leaves2_idle m c t h2, stAt_batch m c t h0 h1 h2]
    unfold batchOut; dsimp only
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runBatch c (grid0.coords t) _ _ _ _ _ _ _ _ _ _ ((newBatch_iff t).mpr h0) ((newRows_iff t).mpr h1) (fun h => h2 ((lastCols_iff t).mp h)) (iblk m c 0 t) (iblk m c 1 t)).2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (batch_coverS c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (batch_cover3 c _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runBatch c (grid0.coords t) _ _ _ _ _ _ _ _ _ _ ((newBatch_iff t).mpr h0) ((newRows_iff t).mpr h1) (fun h => h2 ((lastCols_iff t).mp h)) (iblk m c 0 t) (iblk m c 1 t)).2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (batch_coverS c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (batch_cover3 c _ _ _ _ _ _ _ _ _ _ _ _ _ _ _ _)
  · have hz : t.val ≠ 0 := fun h => h0 (by rw [h])
    rw [PhiS_castSucc m c t, PhiS_pos m c _ _ hz]
    simp only [before3 m c t h0]
    by_cases h1 : t.val % 8 = 0
    · have h2 : ¬t.val % 8 = 7 := by omega
      rw [leaves2_idle m c t h2, stAt_rows m c t h0 h1 h2]
      unfold rowsOut; dsimp only
      iintro ⟨⟨HS, Hg⟩, Ho, ⟨%d0, H0⟩, ⟨%d1, H1⟩, ⟨%d2, H2⟩, ⟨%d3, H3⟩⟩
      iapply ((runRows c (grid0.coords t) _ _ _ _ _ _ _ _ _ _ (fun h => h0 ((newBatch_iff t).mp h)) ((newRows_iff t).mpr h1) (fun h => h2 ((lastCols_iff t).mp h)) (iblk m c 0 t) (iblk m c 1 t) _).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (rows_coverS c _ _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; rfl
    · by_cases h2 : t.val % 8 = 7
      · rw [leaves2_last m c t h2, rowAt_last m c t h0 h1 h2, stAt_last m c t h0 h1 h2]
        unfold lastOut lastRow; dsimp only
        iintro ⟨⟨HS, Hg⟩, Ho, ⟨%d0, H0⟩, ⟨%d1, H1⟩, ⟨%d2, H2⟩, ⟨%d3, H3⟩⟩
        iapply ((runLast c (grid0.coords t) _ _ _ _ _ _ _ _ _ _ (fun h => h0 ((newBatch_iff t).mp h)) (fun h => h1 ((newRows_iff t).mp h)) ((lastCols_iff t).mpr h2) (iblk m c 0 t) (iblk m c 1 t) _ _).2 Set.univ _)
        isplitl [H0]; · iexact H0
        isplitl [H1]; · iexact H1
        isplitl [H2]; · iexists _; iexact H2
        isplitl [H3]; · iexact H3
        isplitl [HS]; · iexact HS
        iintro ⟨H0, H1, ⟨%e2, H2⟩, H3, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (last_cover2 c _ _ _ _ _ _ _ _ _ _ _ _ _ _ _ _ _ _)
        unfold owns; iexists _; isplitr
        swap; · iexact H3
        ipureintro; rfl
      · rw [leaves2_idle m c t h2, stAt_mid m c t h0 h1 h2]
        unfold midOut; dsimp only
        iintro ⟨⟨HS, Hg⟩, Ho, ⟨%d0, H0⟩, ⟨%d1, H1⟩, ⟨%d2, H2⟩, ⟨%d3, H3⟩⟩
        iapply ((runMid c (grid0.coords t) _ _ _ _ _ _ _ _ _ _ (fun h => h0 ((newBatch_iff t).mp h)) (fun h => h1 ((newRows_iff t).mp h)) (fun h => h2 ((lastCols_iff t).mp h)) (iblk m c 0 t) (iblk m c 1 t) _ _).2 _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        isplitl [H2]; · iexists _; iexact H2
        unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's named contents are forgotten. -/
theorem hout (c : Dev nD) : (dats m 0 c).Φ (Fin.last cfg0.N) ⊢ Pipeline.ΦA spec0 c := by
  have hl : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what
    the write-backs of the proof data leave and every other buffer at what the host operations after the region
    compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-- The frame claim at any float family: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Pieces.lean ====
/-
  What each case of the body leaves in the two carried buffers (and, at a last column tile, in the row-minimum
  block), written with the body's own stored values: the lists of stores the runs found, read back.

  The accumulator is always stored whole, so it ends at the stored value `min(old, row minima of the tile)`, where
  `old` is the reset value +∞ at the first column tile of a row tile and what the point before left otherwise; at a
  last column tile the row-minimum block receives that same value. The column-minimum block is stored through
  stretch j only (`stretch`: columns j·1024 … j·1024 + 1023 of the 8192): inside the stretch it ends at
  `min(old, column minima of the tile)`, outside it keeps what it held — the reset value +∞ at a batch's first
  point, what the point before left otherwise.
-/
import proofs.«401845_j56616258895922_3_alg».proof.Proof.KI.Data
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Stretch j of the column-minimum block: the rectangle the body loads and stores at the point of coordinates `i`. -/
abbrev stretch (i : grid0.Coords) : Rect S1x1x8192 := Rect.unit (s := S1x1x8192) (k0_off1 i) S1x1x1024.size (k0_off1_inb i)

/-! ## Reading back a list of stores -/

/-- Zero offsets, as the whole-shape accesses spell them. -/
theorem hz3 : (![0, 0, 0] : Fin 3 → ℕ) = fun _ => 0 := by funext a; fin_cases a <;> rfl

/-- A whole-shape store, last, leaves its payload, whatever was stored before and whatever the buffer held. -/
theorem read_whole_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-- An index outside the last store's rectangle reads what the earlier stores left. -/
theorem read_writes_cons_of_not_mem {κ : Kind} {sp : Space} {S : Shape} {e : EltTy} (v : View sig κ sp S e) (f : v.ty.Contents (Elt F))
    (p : View.Piece (Elt F) S e) (L : List (View.Piece (Elt F) S e)) (y : S.Idx) (hy : y ∉ p.1.set) :
    v.read (Elt F) (v.writes (Elt F) f (p :: L)) y = v.read (Elt F) (v.writes (Elt F) f L) y := by
  rw [View.writes_cons, View.read_slice_write_of_not_mem p.1 _ _ _ (by rw [Rect.map_emb_univ]; exact hy)]

/-! ## The stores each case's run found, in closed form

Every load is of a buffer at known contents: an input block or a carried buffer read whole is those contents, the
stretch of the column-minimum block is their restriction to it, and a buffer read back after its reset is the reset
value. -/

section Lists
variable (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (x0 : Vec F S1x3x2048 .f32) (x1 : Vec F S1x3x1024 .f32)

/-- No branch taken: one store into the stretch of the column-minimum block, one whole store of the accumulator. -/
theorem mid_lists (h0 : ¬newBatch i) (h1 : ¬newRows i) (h2 : ¬lastCols i) (xo : Vec F S1x1x8192 .f32) (xs : Vec F S1x1x2048 .f32) :
    (runMid c i arg3 harg3 arg4 harg4 arg5 harg5 arg6 harg6 arg7 harg7 h0 h1 h2 x0 x1 xo xs).1
      = ([⟨stretch i, k0_pay2 (k0_pay5 x0 x1) (View.ld xo (stretch i))⟩],
         [⟨Rect.unit (s := S1x1x2048) ![0, 0, 0] S1x1x2048.size inb_S1x1x2048_S1x1x2048_0_0_0, k0_pay1 (k0_pay6 x0 x1 xs)⟩]) := by
  unfold runMid; dsimp only; sl_unfold_words
  simp only [View.readAt_eq_ld, Memref.IsWhole.read_unread, View.ld_unit_zero (S := S1x3x2048) hz3,
    View.ld_unit_zero (S := S1x3x1024) hz3, View.ld_unit_zero (S := S1x1x2048) hz3]
  rfl

/-- A new row tile: the accumulator is reset first, and its update reads the reset value back. -/
theorem rows_lists (h0 : ¬newBatch i) (h1 : newRows i) (h2 : ¬lastCols i) (xo : Vec F S1x1x8192 .f32) :
    (runRows c i arg3 harg3 arg4 harg4 arg5 harg5 arg6 harg6 arg7 harg7 h0 h1 h2 x0 x1 xo).1
      = ([⟨stretch i, k0_pay2 (k0_pay5 x0 x1) (View.ld xo (stretch i))⟩],
         [⟨Rect.unit (s := S1x1x2048) ![0, 0, 0] S1x1x2048.size inb_S1x1x2048_S1x1x2048_0_0_0, k0_pay1 (k0_pay6 x0 x1 k0_pay4)⟩,
          ⟨Rect.unit (s := S1x1x2048) ![0, 0, 0] S1x1x2048.size inb_S1x1x2048_S1x1x2048_0_0_0, k0_pay4⟩]) := by
  unfold runRows; dsimp only; sl_unfold_words
  simp only [View.readAt_eq_ld, Memref.IsWhole.read_unread, View.ld_unit_zero (S := S1x3x2048) hz3,
    View.ld_unit_zero (S := S1x3x1024) hz3, View.ld_unit_zero (S := S1x1x2048) hz3,
    View.readCov_unit_zero (S := S1x1x2048) _ hz3]
  rfl

/-- A new batch: both buffers are reset first; the block's update reads the reset value back through the stretch. -/
theorem batch_lists (h0 : newBatch i) (h1 : newRows i) (h2 : ¬lastCols i) :
    (runBatch c i arg3 harg3 arg4 harg4 arg5 harg5 arg6 harg6 arg7 harg7 h0 h1 h2 x0 x1).1
      = ([⟨stretch i, k0_pay2 (k0_pay5 x0 x1) (View.ld (k0_pay3 (F := F)) (stretch i))⟩,
          ⟨Rect.unit (s := S1x1x8192) ![0, 0, 0] S1x1x8192.size inb_S1x1x8192_S1x1x8192_0_0_0, k0_pay3⟩],
         [⟨Rect.unit (s := S1x1x2048) ![0, 0, 0] S1x1x2048.size inb_S1x1x2048_S1x1x2048_0_0_0, k0_pay1 (k0_pay6 x0 x1 k0_pay4)⟩,
          ⟨Rect.unit (s := S1x1x2048) ![0, 0, 0] S1x1x2048.size inb_S1x1x2048_S1x1x2048_0_0_0, k0_pay4⟩]) := by
  unfold runBatch; dsimp only; sl_unfold_words
  simp only [View.readAt_eq_ld, Memref.IsWhole.read_unread, View.ld_unit_zero (S := S1x3x2048) hz3,
    View.ld_unit_zero (S := S1x3x1024) hz3, View.ld_unit_zero (S := S1x1x2048) hz3,
    View.readCov_unit_zero (S := S1x1x2048) _ hz3, read_whole_store (S := S1x1x8192) _ _ hz3]
  rfl

/-- The last column tile: as with no branch, and then the row-minimum block receives the accumulator read back. -/
theorem last_lists (h0 : ¬newBatch i) (h1 : ¬newRows i) (h2 : lastCols i) (xo : Vec F S1x1x8192 .f32) (xs : Vec F S1x1x2048 .f32) :
    (runLast c i arg3 harg3 arg4 harg4 arg5 harg5 arg6 harg6 arg7 harg7 h0 h1 h2 x0 x1 xo xs).1
      = ([⟨Rect.unit (s := S1x1x2048) ![0, 0, 0] S1x1x2048.size inb_S1x1x2048_S1x1x2048_0_0_0, k0_pay1 (k0_pay6 x0 x1 xs)⟩],
         [⟨stretch i, k0_pay2 (k0_pay5 x0 x1) (View.ld xo (stretch i))⟩],
         [⟨Rect.unit (s := S1x1x2048) ![0, 0, 0] S1x1x2048.size inb_S1x1x2048_S1x1x2048_0_0_0, k0_pay1 (k0_pay6 x0 x1 xs)⟩]) := by
  unfold runLast; dsimp only; sl_unfold_words
  simp only [View.readAt_eq_ld, Memref.IsWhole.read_unread, View.ld_unit_zero (S := S1x3x2048) hz3,
    View.ld_unit_zero (S := S1x3x1024) hz3, View.ld_unit_zero (S := S1x1x2048) hz3,
    View.readCov_unit_zero (S := S1x1x2048) _ hz3]
  rfl

end Lists

/-! ## What the stores leave, read through any whole view of the buffers -/

section Reads
variable (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x1x2048 .f32) (harg7 : arg7.IsWhole) (x0 : Vec F S1x3x2048 .f32) (x1 : Vec F S1x3x1024 .f32)

theorem mid_acc (h0 : ¬newBatch i) (h1 : ¬newRows i) (h2 : ¬lastCols i) (xo : Vec F S1x1x8192 .f32) (xs : Vec F S1x1x2048 .f32)
    (f : arg7.view.ty.Contents (Elt F)) :
    arg7.view.read (Elt F) (arg7.view.writes (Elt F) f (runMid c i arg3 harg3 arg4 harg4 arg5 harg5 arg6 harg6 arg7 harg7 h0 h1 h2 x0 x1 xo xs).1.2)
      = k0_pay1 (k0_pay6 x0 x1 xs) := by
  rw [mid_lists]; exact read_whole_store arg7.view f hz3 _ _ _

theorem rows_acc (h0 : ¬newBatch i) (h1 : newRows i) (h2 : ¬lastCols i) (xo : Vec F S1x1x8192 .f32)
    (f : arg7.view.ty.Contents (Elt F)) :
    arg7.view.read (Elt F) (arg7.view.writes (Elt F) f (runRows c i arg3 harg3 arg4 harg4 arg5 harg5 arg6 harg6 arg7 harg7 h0 h1 h2 x0 x1 xo).1.2)
      = k0_pay1 (k0_pay6 x0 x1 k0_pay4) := by
  rw [rows_lists]; exact read_whole_store arg7.view f hz3 _ _ _

theorem batch_acc (h0 : newBatch i) (h1 : newRows i) (h2 : ¬lastCols i) (f : arg7.view.ty.Contents (Elt F)) :
    arg7.view.read (Elt F) (arg7.view.writes (Elt F) f (runBatch c i arg3 harg3 arg4 harg4 arg5 harg5 arg6 harg6 arg7 harg7 h0 h1 h2 x0 x1).1.2)
      = k0_pay1 (k0_pay6 x0 x1 k0_pay4) := by
  rw [batch_lists]; exact read_whole_store arg7.view f hz3 _ _ _

theorem last_acc (h0 : ¬newBatch i) (h1 : ¬newRows i) (h2 : lastCols i) (xo : Vec F S1x1x8192 .f32) (xs : Vec F S1x1x2048 .f32)
    (f : arg7.view.ty.Contents (Elt F)) :
    arg7.view.read (Elt F) (arg7.view.writes (Elt F) f (runLast c i arg3 harg3 arg4 harg4 arg5 harg5 arg6 harg6 arg7 harg7 h0 h1 h2 x0 x1 xo xs).1.2.2)
      = k0_pay1 (k0_pay6 x0 x1 xs) := by
  rw [last_lists]; exact read_whole_store arg7.view f hz3 _ _ _

theorem last_row (h0 : ¬newBatch i) (h1 : ¬newRows i) (h2 : lastCols i) (xo : Vec F S1x1x8192 .f32) (xs : Vec F S1x1x2048 .f32)
    (f : arg5.view.ty.Contents (Elt F)) :
    arg5.view.read (Elt F) (arg5.view.writes (Elt F) f (runLast c i arg3 harg3 arg4 harg4 arg5 harg5 arg6 harg6 arg7 harg7 h0 h1 h2 x0 x1 xo xs).1.1)
      = k0_pay1 (k0_pay6 x0 x1 xs) := by
  rw [last_lists]; exact read_whole_store arg5.view f hz3 _ _ _

theorem mid_col_in (h0 : ¬newBatch i) (h1 : ¬newRows i) (h2 : ¬lastCols i) (xo : Vec F S1x1x8192 .f32) (xs : Vec F S1x1x2048 .f32)
    (f : arg6.view.ty.Contents (Elt F)) (x : S1x1x1024.Idx) :
    arg6.view.read (Elt F) (arg6.view.writes (Elt F) f (runMid c i arg3 harg3 arg4 harg4 arg5 harg5 arg6 harg6 arg7 harg7 h0 h1 h2 x0 x1 xo xs).1.1) ((stretch i).emb x)
      = k0_pay2 (k0_pay5 x0 x1) (View.ld xo (stretch i)) x := by
  rw [mid_lists]; exact View.read_writes_cons_emb arg6.view f (stretch i) _ _ x

theorem rows_col_in (h0 : ¬newBatch i) (h1 : newRows i) (h2 : ¬lastCols i) (xo : Vec F S1x1x8192 .f32)
    (f : arg6.view.ty.Contents (Elt F)) (x : S1x1x1024.Idx) :
    arg6.view.read (Elt F) (arg6.view.writes (Elt F) f (runRows c i arg3 harg3 arg4 harg4 arg5 harg5 arg6 harg6 arg7 harg7 h0 h1 h2 x0 x1 xo).1.1) ((stretch i).emb x)
      = k0_pay2 (k0_pay5 x0 x1) (View.ld xo (stretch i)) x := by
  rw [rows_lists]; exact View.read_writes_cons_emb arg6.view f (stretch i) _ _ x

theorem last_col_in (h0 : ¬newBatch i) (h1 : ¬newRows i) (h2 : lastCols i) (xo : Vec F S1x1x8192 .f32) (xs : Vec F S1x1x2048 .f32)
    (f : arg6.view.ty.Contents (Elt F)) (x : S1x1x1024.Idx) :
    arg6.view.read (Elt F) (arg6.view.writes (Elt F) f (runLast c i arg3 harg3 arg4 harg4 arg5 harg5 arg6 harg6 arg7 harg7 h0 h1 h2 x0 x1 xo xs).1.2.1) ((stretch i).emb x)
      = k0_pay2 (k0_pay5 x0 x1) (View.ld xo (stretch i)) x := by
  rw [last_lists]; exact View.read_writes_cons_emb arg6.view f (stretch i) _ _ x

theorem batch_col_in (h0 : newBatch i) (h1 : newRows i) (h2 : ¬lastCols i) (f : arg6.view.ty.Contents (Elt F)) (x : S1x1x1024.Idx) :
    arg6.view.read (Elt F) (arg6.view.writes (Elt F) f (runBatch c i arg3 harg3 arg4 harg4 arg5 harg5 arg6 harg6 arg7 harg7 h0 h1 h2 x0 x1).1.1) ((stretch i).emb x)
      = k0_pay2 (k0_pay5 x0 x1) (View.ld (k0_pay3 (F := F)) (stretch i)) x := by
  rw [batch_lists]; exact View.read_writes_cons_emb arg6.view f (stretch i) _ _ x

theorem mid_col_out (h0 : ¬newBatch i) (h1 : ¬newRows i) (h2 : ¬lastCols i) (xo : Vec F S1x1x8192 .f32) (xs : Vec F S1x1x2048 .f32)
    (y : S1x1x8192.Idx) (hy : y ∉ (stretch i).set) :
    arg6.view.read (Elt F) (arg6.view.writes (Elt F) (harg6.unread xo) (runMid c i arg3 harg3 arg4 harg4 arg5 harg5 arg6 harg6 arg7 harg7 h0 h1 h2 x0 x1 xo xs).1.1) y = xo y := by
  rw [mid_lists]
  dsimp only
  refine (read_writes_cons_of_not_mem arg6.view (harg6.unread xo) (⟨stretch i, k0_pay2 (k0_pay5 x0 x1) (View.ld xo (stretch i))⟩ : View.Piece (Elt F) S1x1x8192 .f32) [] y hy).trans ?_
  exact congrFun (harg6.read_unread xo) y

theorem rows_col_out (h0 : ¬newBatch i) (h1 : newRows i) (h2 : ¬lastCols i) (xo : Vec F S1x1x8192 .f32)
    (y : S1x1x8192.Idx) (hy : y ∉ (stretch i).set) :
    arg6.view.read (Elt F) (arg6.view.writes (Elt F) (harg6.unread xo) (runRows c i arg3 harg3 arg4 harg4 arg5 harg5 arg6 harg6 arg7 harg7 h0 h1 h2 x0 x1 xo).1.1) y = xo y := by
  rw [rows_lists]
  dsimp only
  refine (read_writes_cons_of_not_mem arg6.view (harg6.unread xo) (⟨stretch i, k0_pay2 (k0_pay5 x0 x1) (View.ld xo (stretch i))⟩ : View.Piece (Elt F) S1x1x8192 .f32) [] y hy).trans ?_
  exact congrFun (harg6.read_unread xo) y

theorem last_col_out (h0 : ¬newBatch i) (h1 : ¬newRows i) (h2 : lastCols i) (xo : Vec F S1x1x8192 .f32) (xs : Vec F S1x1x2048 .f32)
    (y : S1x1x8192.Idx) (hy : y ∉ (stretch i).set) :
    arg6.view.read (Elt F) (arg6.view.writes (Elt F) (harg6.unread xo) (runLast c i arg3 harg3 arg4 harg4 arg5 harg5 arg6 harg6 arg7 harg7 h0 h1 h2 x0 x1 xo xs).1.2.1) y = xo y := by
  rw [last_lists]
  dsimp only
  refine (read_writes_cons_of_not_mem arg6.view (harg6.unread xo) (⟨stretch i, k0_pay2 (k0_pay5 x0 x1) (View.ld xo (stretch i))⟩ : View.Piece (Elt F) S1x1x8192 .f32) [] y hy).trans ?_
  exact congrFun (harg6.read_unread xo) y

theorem batch_col_out (h0 : newBatch i) (h1 : newRows i) (h2 : ¬lastCols i) (f : arg6.view.ty.Contents (Elt F))
    (y : S1x1x8192.Idx) (hy : y ∉ (stretch i).set) :
    arg6.view.read (Elt F) (arg6.view.writes (Elt F) f (runBatch c i arg3 harg3 arg4 harg4 arg5 harg5 arg6 harg6 arg7 harg7 h0 h1 h2 x0 x1).1.1) y = k0_pay3 (F := F) y := by
  rw [batch_lists]
  dsimp only
  rw [View.writes_cons]
  dsimp only
  rw [View.read_slice_write_of_not_mem (stretch i) _ _ _ (by rw [Rect.map_emb_univ]; exact hy)]
  exact congrFun (read_whole_store arg6.view f hz3 inb_S1x1x8192_S1x1x8192_0_0_0 (k0_pay3 (F := F)) []) y

end Reads

/-! ## The accumulator -/

theorem batchOut_acc (c : Dev nD) (t : Fin cfg0.N) (h0 : t.val % 32 = 0) (h1 : t.val % 8 = 0) (h2 : ¬t.val % 8 = 7) :
    (batchOut m c t h0 h1 h2).2 = k0_pay1 (k0_pay6 (iblk m c 0 t) (iblk m c 1 t) k0_pay4) := by
  unfold batchOut; dsimp only
  exact batch_acc c (grid0.coords t) (stg0 t) (hstg0 t) (stg1 t) (hstg1 t) (stg2 t) (hstg2 t) (stg3 t) (hstg3 t) accM (Memref.isWhole_whole cc0_scratch0) (iblk m c 0 t) (iblk m c 1 t) ((newBatch_iff t).mpr h0) ((newRows_iff t).mpr h1) (fun h => h2 ((lastCols_iff t).mp h)) accM.view.junk

theorem rowsOut_acc (c : Dev nD) (t : Fin cfg0.N) (h0 : ¬t.val % 32 = 0) (h1 : t.val % 8 = 0) (h2 : ¬t.val % 8 = 7) (xo : Vec F S1x1x8192 .f32) :
    (rowsOut m c t h0 h1 h2 xo).2 = k0_pay1 (k0_pay6 (iblk m c 0 t) (iblk m c 1 t) k0_pay4) := by
  unfold rowsOut; dsimp only
  exact rows_acc c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) ((newRows_iff t).mpr h1) (fun h => h2 ((lastCols_iff t).mp h)) xo accM.view.junk

theorem midOut_acc (c : Dev nD) (t : Fin cfg0.N) (h0 : ¬t.val % 32 = 0) (h1 : ¬t.val % 8 = 0) (h2 : ¬t.val % 8 = 7) (xo : Vec F S1x1x8192 .f32) (xs : Vec F S1x1x2048 .f32) :
    (midOut m c t h0 h1 h2 xo xs).2 = k0_pay1 (k0_pay6 (iblk m c 0 t) (iblk m c 1 t) xs) := by
  unfold midOut; dsimp only
  exact mid_acc c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) (fun h => h1 ((newRows_iff t).mp h)) (fun h => h2 ((lastCols_iff t).mp h)) xo xs ((Memref.isWhole_whole cc0_scratch0).unread xs)

theorem lastOut_acc (c : Dev nD) (t : Fin cfg0.N) (h0 : ¬t.val % 32 = 0) (h1 : ¬t.val % 8 = 0) (h2 : t.val % 8 = 7) (xo : Vec F S1x1x8192 .f32) (xs : Vec F S1x1x2048 .f32) :
    (lastOut m c t h0 h1 h2 xo xs).2 = k0_pay1 (k0_pay6 (iblk m c 0 t) (iblk m c 1 t) xs) := by
  unfold lastOut; dsimp only
  exact last_acc c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) (fun h => h1 ((newRows_iff t).mp h)) ((lastCols_iff t).mpr h2) xo xs ((Memref.isWhole_whole cc0_scratch0).unread xs)

/-- The row-minimum block at a last column tile: the accumulator as just stored. -/
theorem lastRow_eq (c : Dev nD) (t : Fin cfg0.N) (h0 : ¬t.val % 32 = 0) (h1 : ¬t.val % 8 = 0) (h2 : t.val % 8 = 7) (xo : Vec F S1x1x8192 .f32) (xs : Vec F S1x1x2048 .f32) :
    lastRow m c t h0 h1 h2 xo xs = k0_pay1 (k0_pay6 (iblk m c 0 t) (iblk m c 1 t) xs) := by
  unfold lastRow
  exact last_row c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) (fun h => h1 ((newRows_iff t).mp h)) ((lastCols_iff t).mpr h2) xo xs (stg2 t).view.junk

/-! ## The column-minimum block: inside the point's stretch, and outside it -/

theorem batchOut_col_in (c : Dev nD) (t : Fin cfg0.N) (h0 : t.val % 32 = 0) (h1 : t.val % 8 = 0) (h2 : ¬t.val % 8 = 7) (x : S1x1x1024.Idx) :
    (batchOut m c t h0 h1 h2).1 ((stretch (grid0.coords t)).emb x)
      = k0_pay2 (k0_pay5 (iblk m c 0 t) (iblk m c 1 t)) (View.ld (k0_pay3 (F := F)) (stretch (grid0.coords t))) x := by
  unfold batchOut; dsimp only
  exact batch_col_in c (grid0.coords t) (stg0 t) (hstg0 t) (stg1 t) (hstg1 t) (stg2 t) (hstg2 t) (stg3 t) (hstg3 t) accM (Memref.isWhole_whole cc0_scratch0) (iblk m c 0 t) (iblk m c 1 t) ((newBatch_iff t).mpr h0) ((newRows_iff t).mpr h1) (fun h => h2 ((lastCols_iff t).mp h)) (stg3 t).view.junk x

theorem batchOut_col_out (c : Dev nD) (t : Fin cfg0.N) (h0 : t.val % 32 = 0) (h1 : t.val % 8 = 0) (h2 : ¬t.val % 8 = 7) (y : S1x1x8192.Idx) (hy : y ∉ (stretch (grid0.coords t)).set) :
    (batchOut m c t h0 h1 h2).1 y = k0_pay3 (F := F) y := by
  unfold batchOut; dsimp only
  exact batch_col_out c (grid0.coords t) (stg0 t) (hstg0 t) (stg1 t) (hstg1 t) (stg2 t) (hstg2 t) (stg3 t) (hstg3 t) accM (Memref.isWhole_whole cc0_scratch0) (iblk m c 0 t) (iblk m c 1 t) ((newBatch_iff t).mpr h0) ((newRows_iff t).mpr h1) (fun h => h2 ((lastCols_iff t).mp h)) (stg3 t).view.junk y hy

theorem rowsOut_col_in (c : Dev nD) (t : Fin cfg0.N) (h0 : ¬t.val % 32 = 0) (h1 : t.val % 8 = 0) (h2 : ¬t.val % 8 = 7) (xo : Vec F S1x1x8192 .f32) (x : S1x1x1024.Idx) :
    (rowsOut m c t h0 h1 h2 xo).1 ((stretch (grid0.coords t)).emb x)
      = k0_pay2 (k0_pay5 (iblk m c 0 t) (iblk m c 1 t)) (View.ld xo (stretch (grid0.coords t))) x := by
  unfold rowsOut; dsimp only
  exact rows_col_in c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) ((newRows_iff t).mpr h1) (fun h => h2 ((lastCols_iff t).mp h)) xo ((hstg3 t).unread xo) x

theorem rowsOut_col_out (c : Dev nD) (t : Fin cfg0.N) (h0 : ¬t.val % 32 = 0) (h1 : t.val % 8 = 0) (h2 : ¬t.val % 8 = 7) (xo : Vec F S1x1x8192 .f32) (y : S1x1x8192.Idx) (hy : y ∉ (stretch (grid0.coords t)).set) :
    (rowsOut m c t h0 h1 h2 xo).1 y = xo y := by
  unfold rowsOut; dsimp only
  exact rows_col_out c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) ((newRows_iff t).mpr h1) (fun h => h2 ((lastCols_iff t).mp h)) xo y hy

theorem midOut_col_in (c : Dev nD) (t : Fin cfg0.N) (h0 : ¬t.val % 32 = 0) (h1 : ¬t.val % 8 = 0) (h2 : ¬t.val % 8 = 7) (xo : Vec F S1x1x8192 .f32) (xs : Vec F S1x1x2048 .f32) (x : S1x1x1024.Idx) :
    (midOut m c t h0 h1 h2 xo xs).1 ((stretch (grid0.coords t)).emb x)
      = k0_pay2 (k0_pay5 (iblk m c 0 t) (iblk m c 1 t)) (View.ld xo (stretch (grid0.coords t))) x := by
  unfold midOut; dsimp only
  exact mid_col_in c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) (fun h => h1 ((newRows_iff t).mp h)) (fun h => h2 ((lastCols_iff t).mp h)) xo xs ((hstg3 t).unread xo) x

theorem midOut_col_out (c : Dev nD) (t : Fin cfg0.N) (h0 : ¬t.val % 32 = 0) (h1 : ¬t.val % 8 = 0) (h2 : ¬t.val % 8 = 7) (xo : Vec F S1x1x8192 .f32) (xs : Vec F S1x1x2048 .f32) (y : S1x1x8192.Idx) (hy : y ∉ (stretch (grid0.coords t)).set) :
    (midOut m c t h0 h1 h2 xo xs).1 y = xo y := by
  unfold midOut; dsimp only
  exact mid_col_out c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) (fun h => h1 ((newRows_iff t).mp h)) (fun h => h2 ((lastCols_iff t).mp h)) xo xs y hy

theorem lastOut_col_in (c : Dev nD) (t : Fin cfg0.N) (h0 : ¬t.val % 32 = 0) (h1 : ¬t.val % 8 = 0) (h2 : t.val % 8 = 7) (xo : Vec F S1x1x8192 .f32) (xs : Vec F S1x1x2048 .f32) (x : S1x1x1024.Idx) :
    (lastOut m c t h0 h1 h2 xo xs).1 ((stretch (grid0.coords t)).emb x)
      = k0_pay2 (k0_pay5 (iblk m c 0 t) (iblk m c 1 t)) (View.ld xo (stretch (grid0.coords t))) x := by
  unfold lastOut; dsimp only
  exact last_col_in c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) (fun h => h1 ((newRows_iff t).mp h)) ((lastCols_iff t).mpr h2) xo xs ((hstg3 t).unread xo) x

theorem lastOut_col_out (c : Dev nD) (t : Fin cfg0.N) (h0 : ¬t.val % 32 = 0) (h1 : ¬t.val % 8 = 0) (h2 : t.val % 8 = 7) (xo : Vec F S1x1x8192 .f32) (xs : Vec F S1x1x2048 .f32) (y : S1x1x8192.Idx) (hy : y ∉ (stretch (grid0.coords t)).set) :
    (lastOut m c t h0 h1 h2 xo xs).1 y = xo y := by
  unfold lastOut; dsimp only
  exact last_col_out c (grid0.coords t) (stg0 t) (hstg0 t) (stg1 t) (hstg1 t) (stg2 t) (hstg2 t) (stg3 t) (hstg3 t) accM (Memref.isWhole_whole cc0_scratch0) (iblk m c 0 t) (iblk m c 1 t) (fun h => h0 ((newBatch_iff t).mp h)) (fun h => h1 ((newRows_iff t).mp h)) ((lastCols_iff t).mpr h2) xo xs y hy

end Cert.KernelIdeal.Body

end
-- ==== Proof.Chamfer.lean ====
/-
  The mathematics both programs compute, stated once over plain coordinates on the extended reals.

  For two clouds `x y : [4, 8192, 3]` (batch, point, channel) the squared distance of point `n` of `x` to point
  `m` of `y` in batch `b` is taken in its expanded form
      dist b n m = (|x b n|² + |y b m|²) - 2 · ⟨x b n, y b m⟩,
  each of the three terms a sum over the three channels. `rowMin` is, per point of `x`, the infimum of `dist`
  over all points of `y`; `colMin` the same per point of `y` over all points of `x`. On the extended reals the
  infimum of a finite family is the fold of `min` from `⊤` (= +∞), in any order and any grouping: that is the
  only law the tiled running minima need, and `inf_lt_succ` / `inf_lt_zero` state it in the form they use it — the
  infimum over the indices below `(j + 1) · K` is the minimum of the infimum below `j · K` and the infimum over
  the `j`-th stretch of `K` indices.
-/
import Mathlib.Order.Interval.Finset.Fin
import Mathlib.Data.EReal.Basic
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud: batch × point × channel. -/
abbrev SPts : Shape := ⟨3, ![4, 8192, 3]⟩
/-- A per-point result: batch × point. -/
abbrev SRes : Shape := ⟨2, ![4, 8192]⟩

/-- The literal `2.0` both programs multiply the cross term by (the same word on both sides, never evaluated). -/
abbrev two : EReal := Ideal.ofBits .f32 0x40000000#32

/-- The squared norm of point `n` of batch `b`: the sum of its three squared channels. -/
def sqn (x : FVec Ideal SPts .f32) (b : Fin 4) (n : Fin 8192) : EReal := ∑ k : Fin 3, x (ix3 b n k) * x (ix3 b n k)

/-- The inner product of point `n` of `x` and point `m` of `y` in batch `b`. -/
def cross (x y : FVec Ideal SPts .f32) (b : Fin 4) (n m : Fin 8192) : EReal := ∑ k : Fin 3, x (ix3 b n k) * y (ix3 b m k)

/-- The squared distance in its expanded form. -/
def dist (x y : FVec Ideal SPts .f32) (b : Fin 4) (n m : Fin 8192) : EReal :=
  (sqn x b n + sqn y b m) - two * cross x y b n m

/-- Per point of `x`: the least squared distance to a point of `y`. -/
def rowMin (x y : FVec Ideal SPts .f32) : FVec Ideal SRes .f32 :=
  fun i => Finset.univ.inf fun m : Fin 8192 => dist x y (i 0) (i 1) m

/-- Per point of `y`: the least squared distance to a point of `x`. -/
def colMin (x y : FVec Ideal SPts .f32) : FVec Ideal SRes .f32 :=
  fun i => Finset.univ.inf fun n : Fin 8192 => dist x y (i 0) n (i 1)

/-- The word `0x7F800000` is `+∞`, the top of the extended reals: what every running minimum starts from. -/
theorem posInf : Ideal.ofBits .f32 0x7F800000#32 = (⊤ : EReal) := by simp [Ideal.ofBits, Ideal.ieee]

/-- A fold of `min` from `⊤` over a finite set is the set's infimum. -/
theorem fold_min_top {ι : Type} (s : Finset ι) (f : ι → EReal) : s.fold min ⊤ f = s.inf f := rfl

/-- Below `0 · K` there is no index: the infimum is `⊤`. -/
theorem inf_lt_zero {N : Nat} (K : Nat) (f : Fin N → EReal) :
    (Finset.univ.filter fun m : Fin N => m.val < 0 * K).inf f = ⊤ := by
  rw [Finset.filter_false_of_mem (fun m _ => by omega)]; rfl

/-- The `k`-th index of the `j`-th stretch of `K` lies below `N` when `j + 1` stretches fit. -/
theorem stretch_lt {N K j : Nat} (hj : (j + 1) * K ≤ N) (k : Fin K) : j * K + k.val < N := by
  have := k.isLt
  have : (j + 1) * K = j * K + K := by rw [Nat.add_mul, Nat.one_mul]
  omega

/-- The infimum below `(j + 1) · K` is the minimum of the infimum below `j · K` and that of the `j`-th stretch. -/
theorem inf_lt_succ {N : Nat} (K j : Nat) (hj : (j + 1) * K ≤ N) (f : Fin N → EReal) :
    (Finset.univ.filter fun m : Fin N => m.val < (j + 1) * K).inf f
      = min ((Finset.univ.filter fun m : Fin N => m.val < j * K).inf f)
          (Finset.univ.inf fun k : Fin K => f ⟨j * K + k.val, stretch_lt hj k⟩) := by
  have hK : (j + 1) * K = j * K + K := by rw [Nat.add_mul, Nat.one_mul]
  have hset : (Finset.univ.filter fun m : Fin N => m.val < (j + 1) * K)
      = (Finset.univ.filter fun m : Fin N => m.val < j * K)
        ∪ Finset.univ.image fun k : Fin K => (⟨j * K + k.val, by have := k.isLt; omega⟩ : Fin N) := by
    ext m
    simp only [Finset.mem_filter, Finset.mem_univ, true_and, Finset.mem_union, Finset.mem_image]
    constructor
    · intro h
      by_cases h1 : m.val < j * K
      · exact .inl h1
      · refine .inr ⟨⟨m.val - j * K, by omega⟩, Fin.ext ?_⟩
        show j * K + (m.val - j * K) = m.val
        omega
    · rintro (h | ⟨k, rfl⟩)
      · omega
      · show j * K + k.val < (j + 1) * K
        have := k.isLt; omega
  rw [hset, Finset.inf_union, Finset.inf_image]; rfl

/-- Below `N` is everything. -/
theorem inf_lt_all {N : Nat} (f : Fin N → EReal) :
    (Finset.univ.filter fun m : Fin N => m.val < N).inf f = Finset.univ.inf f := by
  rw [Finset.filter_true_of_mem (fun m _ => m.isLt)]

end Cert.Chamfer

end
-- ==== Proof.KI.Tile.lean ====
/-
  What the body's stored values are, entry by entry, on the extended reals, as functions of the two input blocks
  `p : [1, 3, 2048]` (a row tile of the first cloud, channel-major) and `q : [1, 3, 1024]` (a column tile of the
  second):
    * the distance tile  d r k = (Σ_c p c r · p c r + Σ_c q c k · q c k) - 2 · Σ_c p c r · q c k   (`tileDist`);
    * the accumulator's new value at row r: the minimum of its old value and the infimum of row r of the tile;
    * stretch j of the column-minimum block at column k: the minimum of its old value and the infimum of column k;
    * the two reset values are +∞ (`⊤`) everywhere, and the accumulator is stored as it was computed.
  A change of float format is the identity on the extended reals, a matrix product into a zero accumulator is the
  plain sum over the contracted channel, and a `min`-reduction from +∞ over an axis is the infimum over it.
-/
import proofs.«401845_j56616258895922_3_alg».proof.Proof.Gen.KernelIdeal.Skeleton
import proofs.«401845_j56616258895922_3_alg».proof.Proof.Chamfer
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Tile

open Idealize.ShloMosaic Idealize.ShloMosaic.ValueIdx Cert.KernelIdeal Cert.KernelIdeal.Gen Cert.Chamfer

/-! ## Layout operations read at coordinates -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[a]` cast to `[1, 1, a]` reads, at `(u, w, i)`, the operand at `i`. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw, Nat.zero_mul, Nat.zero_add])

/-- A `[1, 1, a]` array cast to the vector `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions over one axis of a matrix, read at a coordinate -/

/-- The sum over the rows of a `[3, n]` array, read at column `r`: the three channels added. -/
theorem sum_rows_apply {n : ℕ} (v : FVec Ideal ⟨2, ![3, n]⟩ .f32) (h : Shape.Reduces ⟨2, ![3, n]⟩ [0] ⟨1, ![n]⟩)
    (hφ : FKind.Formats .f32) (hacc : (0x00000000#32 : BitVec 32) = FKind.add.neutral .f32 hφ) (r : Fin n) :
    multiReduction .add [0] ⟨1, ![n]⟩ v 0x00000000#32 h hφ hacc (ix1 r) = ∑ c : Fin 3, v (ix2 c r) := by
  refine (Ideal.multiReduction_add_single v _ h hφ hacc (ix1 r)).trans ?_
  refine Finset.sum_congr rfl fun c _ => congrArg v (funext fun a => Fin.ext ?_)
  match a with
  | ⟨0, _⟩ => rfl
  | ⟨1, _⟩ => rfl

/-- A `min`-reduction over one axis, read on the extended reals: the fold of `min` from the accumulator's value over that
axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum from +∞ along the rows of an `[m, n]` array, read at row `r`: the infimum of that row. -/
theorem min_axis1_apply {m n : ℕ} (v : FVec Ideal ⟨2, ![m, n]⟩ .f32) (h : Shape.Reduces ⟨2, ![m, n]⟩ [1] ⟨1, ![m]⟩)
    (hφ : FKind.Formats .f32) (hacc : (0x7F800000#32 : BitVec 32) = FKind.minimumf.neutral .f32 hφ) (r : Fin m) :
    multiReduction .minimumf [1] ⟨1, ![m]⟩ v 0x7F800000#32 h hφ hacc (ix1 r) = Finset.univ.inf fun k : Fin n => v (ix2 r k) := by
  refine (multiReduction_minimumf_single v _ h hφ hacc (ix1 r)).trans ?_
  show Finset.univ.fold min (Ideal.ofBits .f32 0x7F800000#32) (v ∘ h.lift (ix1 r)) = _
  rw [posInf, fold_min_top]
  refine congrArg Finset.univ.inf (funext fun k => congrArg v (funext fun a => Fin.ext ?_))
  match a with
  | ⟨0, _⟩ => rfl
  | ⟨1, _⟩ => rfl

/-- The minimum from +∞ down the columns of an `[m, n]` array, read at column `k`: the infimum of that column. -/
theorem min_axis0_apply {m n : ℕ} (v : FVec Ideal ⟨2, ![m, n]⟩ .f32) (h : Shape.Reduces ⟨2, ![m, n]⟩ [0] ⟨1, ![n]⟩)
    (hφ : FKind.Formats .f32) (hacc : (0x7F800000#32 : BitVec 32) = FKind.minimumf.neutral .f32 hφ) (k : Fin n) :
    multiReduction .minimumf [0] ⟨1, ![n]⟩ v 0x7F800000#32 h hφ hacc (ix1 k) = Finset.univ.inf fun r : Fin m => v (ix2 r k) := by
  refine (multiReduction_minimumf_single v _ h hφ hacc (ix1 k)).trans ?_
  show Finset.univ.fold min (Ideal.ofBits .f32 0x7F800000#32) (v ∘ h.lift (ix1 k)) = _
  rw [posInf, fold_min_top]
  refine congrArg Finset.univ.inf (funext fun r => congrArg v (funext fun a => Fin.ext ?_))
  match a with
  | ⟨0, _⟩ => rfl
  | ⟨1, _⟩ => rfl

/-! ## The matrix product's operand indices, axis by axis -/

/-- The left operand is read, on its channel axis, at the contraction index; -/
theorem dot_lhs_0 (i : S2048x1024.Idx) (q : dot_S3x2048_S3x1024_S2048x1024_0_0_1_1_n_n.contr.Idx) :
    (dot_S3x2048_S3x1024_S2048x1024_0_0_1_1_n_n.lhsIdx i q 0).val = (q ⟨0, by decide⟩).val :=
  dot_S3x2048_S3x1024_S2048x1024_0_0_1_1_n_n.lhsIdx_val_of_single rfl i q

/-- on its point axis, at the result's row. -/
theorem dot_lhs_1 (i : S2048x1024.Idx) (q : dot_S3x2048_S3x1024_S2048x1024_0_0_1_1_n_n.contr.Idx) :
    (dot_S3x2048_S3x1024_S2048x1024_0_0_1_1_n_n.lhsIdx i q 1).val = (i 0).val := by
  unfold DotDims.lhsIdx
  rw [dif_neg (show ¬(1 : Fin S3x2048.rank) ∈ dot_S3x2048_S3x1024_S2048x1024_0_0_1_1_n_n.lhsBatch by decide), dif_pos (show (1 : Fin S3x2048.rank) ∈ dot_S3x2048_S3x1024_S2048x1024_0_0_1_1_n_n.lhsNonContracting by decide)]
  rfl

/-- The right operand is read, on its channel axis, at the contraction index; -/
theorem dot_rhs_0 (i : S2048x1024.Idx) (q : dot_S3x2048_S3x1024_S2048x1024_0_0_1_1_n_n.contr.Idx) :
    (dot_S3x2048_S3x1024_S2048x1024_0_0_1_1_n_n.rhsIdx i q 0).val = (q ⟨0, by decide⟩).val :=
  dot_S3x2048_S3x1024_S2048x1024_0_0_1_1_n_n.rhsIdx_val_of_single rfl i q

/-- on its point axis, at the result's column. -/
theorem dot_rhs_1 (i : S2048x1024.Idx) (q : dot_S3x2048_S3x1024_S2048x1024_0_0_1_1_n_n.contr.Idx) :
    (dot_S3x2048_S3x1024_S2048x1024_0_0_1_1_n_n.rhsIdx i q 1).val = (i 1).val := by
  unfold DotDims.rhsIdx
  rw [dif_neg (show ¬(1 : Fin S3x1024.rank) ∈ dot_S3x2048_S3x1024_S2048x1024_0_0_1_1_n_n.rhsBatch by decide), dif_pos (show (1 : Fin S3x1024.rank) ∈ dot_S3x2048_S3x1024_S2048x1024_0_0_1_1_n_n.rhsNonContracting by decide)]
  rfl

/-- The product of two channel-major tiles into a zero accumulator, read at (r, k): the sum over the three channels of
the products of the two points' coordinates. -/
theorem dot_apply (A : FVec Ideal S3x2048 .bf16) (B : FVec Ideal S3x1024 .bf16) (r : Fin 2048) (k : Fin 1024) :
    matmul dot_S3x2048_S3x1024_S2048x1024_0_0_1_1_n_n none A B (constant (F := Ideal) S2048x1024 .f32 0x00000000#32) (ix2 r k)
      = ∑ c : Fin 3, A (ix2 c r) * B (ix2 c k) := by
  refine (Ideal.matmul_constant_zero_apply dot_S3x2048_S3x1024_S2048x1024_0_0_1_1_n_n none A B (ix2 r k)).trans ?_
  rw [← Equiv.sum_comp (contrEquiv1 dot_S3x2048_S3x1024_S2048x1024_0_0_1_1_n_n 3 rfl rfl).symm]
  refine Finset.sum_congr rfl fun c _ => ?_
  have hc := contrEquiv1_symm_val dot_S3x2048_S3x1024_S2048x1024_0_0_1_1_n_n 3 rfl rfl c
  have el : dot_S3x2048_S3x1024_S2048x1024_0_0_1_1_n_n.lhsIdx (ix2 r k) ((contrEquiv1 dot_S3x2048_S3x1024_S2048x1024_0_0_1_1_n_n 3 rfl rfl).symm c) = ix2 c r :=
    funext fun a => Fin.ext (by
      match a with
      | ⟨0, _⟩ => exact (dot_lhs_0 _ _).trans hc
      | ⟨1, _⟩ => exact dot_lhs_1 _ _)
  have er : dot_S3x2048_S3x1024_S2048x1024_0_0_1_1_n_n.rhsIdx (ix2 r k) ((contrEquiv1 dot_S3x2048_S3x1024_S2048x1024_0_0_1_1_n_n 3 rfl rfl).symm c) = ix2 c k :=
    funext fun a => Fin.ext (by
      match a with
      | ⟨0, _⟩ => exact (dot_rhs_0 _ _).trans hc
      | ⟨1, _⟩ => exact dot_rhs_1 _ _)
  rw [el, er]

/-! ## The three terms of the distance, as the body computes them -/

/-- The squared norms: a `[1, 3, n]` tile cast to `[3, n]`, squared entry by entry and summed over the channel axis, read
at point `r`. -/
theorem sqnorm_apply {n : ℕ} (x : FVec Ideal ⟨3, ![1, 3, n]⟩ .f32) (hc : (⟨3, ![1, 3, n]⟩ : Shape).ShapeCasts ⟨2, ![3, n]⟩)
    (h : Shape.Reduces ⟨2, ![3, n]⟩ [0] ⟨1, ![n]⟩) (hφ : FKind.Formats .f32)
    (hacc : (0x00000000#32 : BitVec 32) = FKind.add.neutral .f32 hφ) (r : Fin n) :
    multiReduction .add [0] ⟨1, ![n]⟩ (mulf (shapeCast ⟨2, ![3, n]⟩ x hc) (shapeCast ⟨2, ![3, n]⟩ x hc)) 0x00000000#32 h hφ hacc (ix1 r)
      = ∑ c : Fin 3, x (ix3 0 c r) * x (ix3 0 c r) := by
  refine (sum_rows_apply _ h hφ hacc r).trans (Finset.sum_congr rfl fun c _ => ?_)
  refine (mulf_apply _ _ _).trans ?_
  rw [shapeCast_1ab_ab_apply x hc c r]

/-- The cross term: the two tiles cast to `[3, n]`, their format changed (the identity on the extended reals), multiplied
into a zero accumulator, read at (r, k). -/
theorem cross_apply (p : Vec Ideal S1x3x2048 .f32) (q : Vec Ideal S1x3x1024 .f32) (r : Fin 2048) (k : Fin 1024) :
    matmul dot_S3x2048_S3x1024_S2048x1024_0_0_1_1_n_n none
        (truncf .bf16 (shapeCast S3x2048 p shapeCasts_S1x3x2048_S3x2048 : FVec Ideal S3x2048 .f32) bitsLt_bf16_f32)
        (truncf .bf16 (shapeCast S3x1024 q shapeCasts_S1x3x1024_S3x1024 : FVec Ideal S3x1024 .f32) bitsLt_bf16_f32)
        (constant (F := Ideal) S2048x1024 .f32 0x00000000#32) (ix2 r k)
      = ∑ c : Fin 3, p (ix3 0 c r) * q (ix3 0 c k) := by
  refine (dot_apply _ _ r k).trans (Finset.sum_congr rfl fun c _ => ?_)
  rw [truncf_apply, truncf_apply, shapeCast_1ab_ab_apply p _ c r, shapeCast_1ab_ab_apply q _ c k]

/-- A vector kept as a column and spread over the columns reads its row's entry; -/
theorem spread_rows_apply (v : FVec Ideal S2048 .f32) (r : Fin 2048) (k : Fin 1024) :
    broadcastTo S2048x1024 (shapeCast S2048x1 v shapeCasts_S2048_S2048x1) broadcasts_S2048x1_S2048x1024 (ix2 r k) = v (ix1 r) :=
  (broadcastTo_a1_ab_apply _ _ r k).trans (shapeCast_a_a1_apply v _ r 0)

/-- kept as a row and spread over the rows, its column's entry. -/
theorem spread_cols_apply (v : FVec Ideal S1024 .f32) (r : Fin 2048) (k : Fin 1024) :
    broadcastTo S2048x1024 (shapeCast S1x1024 v shapeCasts_S1024_S1x1024) broadcasts_S1x1024_S2048x1024 (ix2 r k) = v (ix1 k) :=
  (broadcastTo_1b_ab_apply _ _ r k).trans (shapeCast_a_1a_apply v _ 0 k)

/-- The distance tile of a row tile `p` and a column tile `q`, at row `r` and column `k`. -/
def tileDist (p : Vec Ideal S1x3x2048 .f32) (q : Vec Ideal S1x3x1024 .f32) (r : Fin 2048) (k : Fin 1024) : EReal :=
  ((∑ c : Fin 3, p (ix3 0 c r) * p (ix3 0 c r)) + (∑ c : Fin 3, q (ix3 0 c k) * q (ix3 0 c k)))
    - two * ∑ c : Fin 3, p (ix3 0 c r) * q (ix3 0 c k)

/-- The body's distance tile, read at (r, k). -/
theorem pay5_apply (p : Vec Ideal S1x3x2048 .f32) (q : Vec Ideal S1x3x1024 .f32) (r : Fin 2048) (k : Fin 1024) :
    k0_pay5 (F := Ideal) p q (ix2 r k) = tileDist p q r k := by
  unfold k0_pay5 tileDist
  refine (subf_apply _ _ _).trans ?_
  refine congrArg₂ (· - ·) ((addf_apply _ _ _).trans (congrArg₂ (· + ·) ?_ ?_)) ((mulf_apply _ _ _).trans (congrArg₂ (· * ·) rfl ?_))
  · exact (spread_rows_apply _ r k).trans (sqnorm_apply p _ _ _ _ r)
  · exact (spread_cols_apply _ r k).trans (sqnorm_apply q _ _ _ _ k)
  · exact cross_apply p q r k

/-- The accumulator's new value at row `r`: the old value against the infimum of the tile's row. -/
theorem pay6_apply (p : Vec Ideal S1x3x2048 .f32) (q : Vec Ideal S1x3x1024 .f32) (a : Vec Ideal S1x1x2048 .f32) (r : Fin 2048) :
    k0_pay6 (F := Ideal) p q a (ix3 0 0 r) = min (a (ix3 0 0 r)) (Finset.univ.inf fun k : Fin 1024 => tileDist p q r k) := by
  unfold k0_pay6
  refine (minimumf_apply _ _ _).trans (congrArg (min (a (ix3 0 0 r))) ?_)
  refine (shapeCast_a_11a_apply _ _ 0 0 r).trans ?_
  refine (min_axis1_apply _ _ _ _ r).trans ?_
  exact congrArg Finset.univ.inf (funext fun k => pay5_apply p q r k)

/-- A stretch of the column-minimum block at column `k`: the old value against the infimum of the tile's column. -/
theorem pay2_apply (d : FVec Ideal S2048x1024 .f32) (o : Vec Ideal S1x1x1024 .f32) (k : Fin 1024) :
    k0_pay2 (F := Ideal) d o (ix3 0 0 k) = min (o (ix3 0 0 k)) (Finset.univ.inf fun r : Fin 2048 => d (ix2 r k)) := by
  unfold k0_pay2
  refine (shapeCast_a_11a_apply _ _ 0 0 k).trans ?_
  refine (minimumf_apply _ _ _).trans ?_
  exact congrArg₂ min (shapeCast_11a_a_apply o _ k) (min_axis0_apply d _ _ _ k)

/-- The accumulator is stored as computed. -/
theorem pay1_apply (a : FVec Ideal S1x1x2048 .f32) (y : S1x1x2048.Idx) : k0_pay1 (F := Ideal) a y = a y := by
  unfold k0_pay1
  exact congrFun (shapeCast_self a _) y

/-- The column-minimum block's reset value is +∞ everywhere, -/
theorem pay3_apply (y : S1x1x8192.Idx) : k0_pay3 (F := Ideal) y = ⊤ := by
  unfold k0_pay3
  exact posInf

/-- and so is the accumulator's. -/
theorem pay4_apply (y : S1x1x2048.Idx) : k0_pay4 (F := Ideal) y = ⊤ := by
  unfold k0_pay4
  refine (congrFun (shapeCast_self _ _) y).trans ?_
  exact posInf

end Cert.KernelIdeal.Tile

end
-- ==== Proof.KI.Blocks.lean ====
/-
  The blocks in the arrays' own coordinates.

  Point t = 32·b + 8·i + j of the grid works on batch b = t / 32, row tile i = (t / 8) mod 4 (points 2048·i … of the
  first cloud) and column tile j = t mod 8 (points 1024·j … of the second). The kernel is handed the clouds
  channel-major (the host transposes [4, 8192, 3] to [4, 3, 8192] before the call), so entry (0, ch, r) of the first
  input block is channel ch of point 2048·i + r of batch b of the first cloud, and likewise for the second; the
  distance tile of the two blocks is therefore the distance table at those points. Stretch j of the resident
  column-minimum block is columns 1024·j … 1024·j + 1023. The row-minimum array [4, 1, 8192] is written back in
  blocks (b, 0, i) at the last column tile of each row tile, the column-minimum array in blocks (b, 0, 0) at the
  last point of each batch; both families of blocks cover their arrays.
-/
import proofs.«401845_j56616258895922_3_alg».proof.Proof.KI.Pieces
import proofs.«401845_j56616258895922_3_alg».proof.Proof.KI.Tile
import proofs.«401845_j56616258895922_3_alg».proof.Proof.Chamfer
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.KernelIdeal.Tile Cert.Chamfer

variable (m : (ℓ : Loc nD τ sig) → Buf (Elt Ideal) ℓ) (c : Dev nD)

/-- The two clouds as launched. -/
abbrev cloudX : FVec Ideal SPts .f32 := m ((c.tc : Thread nD τ).loc main_arg0)
abbrev cloudY : FVec Ideal SPts .f32 := m ((c.tc : Thread nD τ).loc main_arg1)

theorem N128 : cfg0.N = 128 := N_0

/-- The batch of point `t`; -/
def bat (t : Fin cfg0.N) : Fin 4 := ⟨t.val / 32, by have := t.isLt; have := N128; omega⟩
/-- point `r` of its row tile, as a point of the first cloud; -/
def rowIx (t : Fin cfg0.N) (r : Fin 2048) : Fin 8192 := ⟨((t.val / 8) % 4) * 2048 + r.val, by have := r.isLt; omega⟩
/-- point `k` of its column tile, as a point of the second cloud. -/
def colIx (t : Fin cfg0.N) (k : Fin 1024) : Fin 8192 := ⟨(t.val % 8) * 1024 + k.val, by have := k.isLt; omega⟩

/-- The grid's coordinates of point `t`. -/
theorem coords_eq (t : Fin cfg0.N) :
    (grid0.coords t 0).val = t.val / 32 ∧ (grid0.coords t 1).val = (t.val / 8) % 4 ∧ (grid0.coords t 2).val = t.val % 8 := by
  exact (by decide +kernel : ∀ t : Fin grid0.N,
    (grid0.coords t 0).val = t.val / 32 ∧ (grid0.coords t 1).val = (t.val / 8) % 4 ∧ (grid0.coords t 2).val = t.val % 8) t

/-- The four windows' block indices at point `t`: (b, 0, i) for the first input and the row-minimum array,
    (b, 0, j) for the second input, (b, 0, 0) for the column-minimum array. -/
theorem index_facts : ∀ t : Fin cfg0.N,
    win0_0.index t (0 : Fin 3) = t.val / 32 ∧ win0_0.index t (1 : Fin 3) = 0 ∧ win0_0.index t (2 : Fin 3) = (t.val / 8) % 4
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = (t.val / 8) % 4
    ∧ win0_3.index t (0 : Fin 3) = t.val / 32 ∧ win0_3.index t (1 : Fin 3) = 0 ∧ win0_3.index t (2 : Fin 3) = 0 :=
  (by decide +kernel : ∀ t : Fin grid0.N, _)

/-- The offsets of the point's stretch of the column-minimum block: (0, 0, 1024·j). -/
theorem off_facts : ∀ t : Fin cfg0.N,
    k0_off1 (grid0.coords t) (0 : Fin 3) = 0 ∧ k0_off1 (grid0.coords t) (1 : Fin 3) = 0
    ∧ k0_off1 (grid0.coords t) (2 : Fin 3) = (t.val % 8) * 1024 :=
  (by decide +kernel : ∀ t : Fin grid0.N, _)

/-! ## The input blocks -/

/-- The host's transpose [4, 8192, 3] → [4, 3, 8192] read at (b, ch, n) is the operand at (b, n, ch). -/
theorem transposed_read (X : S4x8192x3.Idx → EReal) (b : Fin 4) (ch : Fin 3) (n : Fin 8192) :
    transpose S4x3x8192 [0, 2, 1] X transposes_S4x8192x3_S4x3x8192_0_2_1 (ix3 b ch n) = X (ix3 b n ch) :=
  transpose_apply _ X _ _ _ (fun a => match a with | ⟨0, _⟩ => rfl | ⟨1, _⟩ => rfl | ⟨2, _⟩ => rfl)

/-- The array the first input window stages is the first cloud, transposed channel-major; -/
theorem V_v0 : (V m c main_v0 : S4x3x8192.Idx → EReal)
    = transpose S4x3x8192 [0, 2, 1] (m ((c.tc : Thread nD τ).loc main_arg0)) transposes_S4x8192x3_S4x3x8192_0_2_1 := by
  dsimp only [Gen.V, Gen.V0]
  simp only [hostOps0, List.flatten_cons, List.flatten_nil, List.append_nil, List.cons_append, List.nil_append]
  after_results <;> rfl

/-- the second's is the second cloud, transposed likewise. -/
theorem V_v1 : (V m c main_v1 : S4x3x8192.Idx → EReal)
    = transpose S4x3x8192 [0, 2, 1] (m ((c.tc : Thread nD τ).loc main_arg1)) transposes_S4x8192x3_S4x3x8192_0_2_1 := by
  dsimp only [Gen.V, Gen.V0]
  simp only [hostOps0, List.flatten_cons, List.flatten_nil, List.append_nil, List.cons_append, List.nil_append]
  after_results <;> rfl

/-- Entry (0, ch, r) of the first input block sits at (b, ch, 2048·i + r) of its array: on each axis, block index
    times block size plus the coordinate inside the block. -/
theorem blk0_emb (t : Fin cfg0.N) (ch : Fin 3) (r : Fin 2048) :
    ((cfg0.win 0).blk t).view.emb (ix3 0 ch r) = (ix3 (bat t) ch (rowIx t r) : S4x3x8192.Idx) := by
  obtain ⟨e0, e1, e2, -⟩ := index_facts t
  funext a; apply Fin.ext
  match a with
  | ⟨0, _⟩ => show win0_0.index t (0 : Fin 3) * 1 + 1 * 0 = t.val / 32; omega
  | ⟨1, _⟩ => show win0_0.index t (1 : Fin 3) * 3 + 1 * ch.val = ch.val; omega
  | ⟨2, _⟩ => show win0_0.index t (2 : Fin 3) * 2048 + 1 * r.val = ((t.val / 8) % 4) * 2048 + r.val; omega

/-- Entry (0, ch, k) of the second input block sits at (b, ch, 1024·j + k) of its array. -/
theorem blk1_emb (t : Fin cfg0.N) (ch : Fin 3) (k : Fin 1024) :
    ((cfg0.win 1).blk t).view.emb (ix3 0 ch k) = (ix3 (bat t) ch (colIx t k) : S4x3x8192.Idx) := by
  obtain ⟨-, -, -, e0, e1, e2, -⟩ := index_facts t
  funext a; apply Fin.ext
  match a with
  | ⟨0, _⟩ => show win0_1.index t (0 : Fin 3) * 1 + 1 * 0 = t.val / 32; omega
  | ⟨1, _⟩ => show win0_1.index t (1 : Fin 3) * 3 + 1 * ch.val = ch.val; omega
  | ⟨2, _⟩ => show win0_1.index t (2 : Fin 3) * 1024 + 1 * k.val = (t.val % 8) * 1024 + k.val; omega

theorem iblk0_apply (t : Fin cfg0.N) (ch : Fin 3) (r : Fin 2048) :
    iblk m c 0 t (ix3 0 ch r) = cloudX m c (ix3 (bat t) (rowIx t r) ch) := by
  show V m c main_v0 (((cfg0.win 0).blk t).view.emb (ix3 0 ch r)) = _
  refine (congrArg (V m c main_v0) (blk0_emb t ch r)).trans ?_
  rw [V_v0]
  exact transposed_read _ _ _ _

theorem iblk1_apply (t : Fin cfg0.N) (ch : Fin 3) (k : Fin 1024) :
    iblk m c 1 t (ix3 0 ch k) = cloudY m c (ix3 (bat t) (colIx t k) ch) := by
  show V m c main_v1 (((cfg0.win 1).blk t).view.emb (ix3 0 ch k)) = _
  refine (congrArg (V m c main_v1) (blk1_emb t ch k)).trans ?_
  rw [V_v1]
  exact transposed_read _ _ _ _

/-- The distance tile of the point's two blocks is the distance table at the tile's points. -/
theorem tileDist_eq (t : Fin cfg0.N) (r : Fin 2048) (k : Fin 1024) :
    tileDist (iblk m c 0 t) (iblk m c 1 t) r k = dist (cloudX m c) (cloudY m c) (bat t) (rowIx t r) (colIx t k) := by
  unfold tileDist Cert.Chamfer.dist Cert.Chamfer.sqn Cert.Chamfer.cross
  simp only [iblk0_apply, iblk1_apply]

/-! ## The point's stretch of the column-minimum block -/

theorem stretch_emb (t : Fin cfg0.N) (k : Fin 1024) :
    (stretch (grid0.coords t)).emb (ix3 0 0 k) = ix3 0 0 (colIx t k) := by
  obtain ⟨o0, o1, o2⟩ := off_facts t
  funext a; apply Fin.ext
  match a with
  | ⟨0, _⟩ => show k0_off1 (grid0.coords t) (0 : Fin 3) + 1 * 0 = 0; omega
  | ⟨1, _⟩ => show k0_off1 (grid0.coords t) (1 : Fin 3) + 1 * 0 = 0; omega
  | ⟨2, _⟩ => show k0_off1 (grid0.coords t) (2 : Fin 3) + 1 * k.val = (t.val % 8) * 1024 + k.val; omega

theorem mem_stretch_iff (t : Fin cfg0.N) (mc : Fin 8192) :
    (ix3 0 0 mc : S1x1x8192.Idx) ∈ (stretch (grid0.coords t)).set ↔ mc.val / 1024 = t.val % 8 := by
  obtain ⟨o0, o1, o2⟩ := off_facts t
  rw [Rect.mem_set_unit]
  constructor
  · intro h
    have h2 : k0_off1 (grid0.coords t) (2 : Fin 3) ≤ mc.val ∧ mc.val < k0_off1 (grid0.coords t) (2 : Fin 3) + 1024 := h 2
    omega
  · intro h a
    match a with
    | ⟨0, _⟩ => show k0_off1 (grid0.coords t) (0 : Fin 3) ≤ 0 ∧ 0 < k0_off1 (grid0.coords t) (0 : Fin 3) + 1; omega
    | ⟨1, _⟩ => show k0_off1 (grid0.coords t) (1 : Fin 3) ≤ 0 ∧ 0 < k0_off1 (grid0.coords t) (1 : Fin 3) + 1; omega
    | ⟨2, _⟩ => show k0_off1 (grid0.coords t) (2 : Fin 3) ≤ mc.val ∧ mc.val < k0_off1 (grid0.coords t) (2 : Fin 3) + 1024; omega

theorem ld_stretch (t : Fin cfg0.N) (xo : Vec Ideal S1x1x8192 .f32) (k : Fin 1024) :
    View.ld xo (stretch (grid0.coords t)) (ix3 0 0 k) = xo (ix3 0 0 (colIx t k)) := by
  exact congrArg xo (stretch_emb t k)

/-! ## The output blocks in their arrays -/

/-- Entry (0, 0, r) of the row-minimum block sits at (b, 0, 2048·i + r) of its array; -/
theorem blk2_emb (t : Fin cfg0.N) (r : Fin 2048) :
    ((cfg0.win 2).blk t).view.emb (ix3 0 0 r) = (ix3 (bat t) 0 (rowIx t r) : S4x1x8192.Idx) := by
  obtain ⟨-, -, -, -, -, -, e0, e1, e2, -⟩ := index_facts t
  funext a; apply Fin.ext
  match a with
  | ⟨0, _⟩ => show win0_2.index t (0 : Fin 3) * 1 + 1 * 0 = t.val / 32; omega
  | ⟨1, _⟩ => show win0_2.index t (1 : Fin 3) * 1 + 1 * 0 = 0; omega
  | ⟨2, _⟩ => show win0_2.index t (2 : Fin 3) * 2048 + 1 * r.val = ((t.val / 8) % 4) * 2048 + r.val; omega

/-- entry (0, 0, mc) of the column-minimum block at (b, 0, mc) of its. -/
theorem blk3_emb (t : Fin cfg0.N) (mc : Fin 8192) :
    ((cfg0.win 3).blk t).view.emb (ix3 0 0 mc) = (ix3 (bat t) 0 mc : S4x1x8192.Idx) := by
  obtain ⟨-, -, -, -, -, -, -, -, -, e0, e1, e2⟩ := index_facts t
  funext a; apply Fin.ext
  match a with
  | ⟨0, _⟩ => show win0_3.index t (0 : Fin 3) * 1 + 1 * 0 = t.val / 32; omega
  | ⟨1, _⟩ => show win0_3.index t (1 : Fin 3) * 1 + 1 * 0 = 0; omega
  | ⟨2, _⟩ => show win0_3.index t (2 : Fin 3) * 8192 + 1 * mc.val = mc.val; omega

/-- Block t of the row-minimum array [4, 1, 8192] is row tile i of batch b. -/
theorem blk2_read (t : Fin cfg0.N) (G : S4x1x8192.Idx → EReal) (r : Fin 2048) :
    ((cfg0.win 2).blk t).view.read (Elt Ideal) G (ix3 0 0 r) = G (ix3 (bat t) 0 (rowIx t r)) := by
  exact congrArg G (blk2_emb t r)

/-- Block t of the column-minimum array [4, 1, 8192] is all of batch b. -/
theorem blk3_read (t : Fin cfg0.N) (G : S4x1x8192.Idx → EReal) (mc : Fin 8192) :
    ((cfg0.win 3).blk t).view.read (Elt Ideal) G (ix3 0 0 mc) = G (ix3 (bat t) 0 mc) := by
  exact congrArg G (blk3_emb t mc)

/-- An index of the row-minimum array lies in point `t`'s block iff each coordinate lies in the block's range on
    its axis; -/
theorem mem_blk2 (t : Fin cfg0.N) (i : S4x1x8192.Idx) :
    i ∈ ((cfg0.win 2).blk t).view.set ↔ ∀ a : Fin 3, win0_2.index t a * S1x1x2048.size a ≤ (i a).val
      ∧ (i a).val < win0_2.index t a * S1x1x2048.size a + S1x1x2048.size a := by
  show i ∈ ((View.whole main_v2_0).slice (win0_2.rect t)).set ↔ _
  rw [View.set_slice_whole, Rect.mem_set_unit]
  exact Iff.rfl

/-- likewise for the column-minimum array. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v2_1).slice (win0_3.rect t)).set ↔ _
  rw [View.set_slice_whole, Rect.mem_set_unit]
  exact Iff.rfl

/-- Index (b, 0, n) of the row-minimum array is written back at point 32·b + 8·(n / 2048) + 7: the last column tile
    of the row tile that holds row n. -/
theorem cover2_idx (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hN := N128
  let t : Fin cfg0.N := ⟨32 * (i 0).val + 8 * ((i 2).val / 2048) + 7, by omega⟩
  have tv : t.val = 32 * (i 0).val + 8 * ((i 2).val / 2048) + 7 := rfl
  obtain ⟨-, -, -, -, -, -, e0, e1, e2, -⟩ := index_facts t
  refine ⟨t, (flush0_2 t).2 (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- Index (b, 0, n) of the column-minimum array is written back at point 32·b + 31, the last point of batch b. -/
theorem cover3_idx (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN := N128
  let t : Fin cfg0.N := ⟨32 * (i 0).val + 31, by omega⟩
  have tv : t.val = 32 * (i 0).val + 31 := rfl
  obtain ⟨-, -, -, -, -, -, -, -, -, e0, e1, e2⟩ := index_facts t
  refine ⟨t, (flush0_3 t).2 (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The write-backs of the row-minimum blocks cover their array; -/
theorem cover2 : ∀ i : (((cfg0.win 2).arr.view.loc (c.tc : Thread nD τ))).2.ty.Idx,
    ∃ t : Fin cfg0.N, (cfg0.win 2).flush t = true ∧ i ∈ ((cfg0.win 2).blk t).view.set := by
  exact fun i => cover2_idx i

/-- and those of the column-minimum blocks theirs. -/
theorem cover3 : ∀ i : (((cfg0.win 3).arr.view.loc (c.tc : Thread nD τ))).2.ty.Idx,
    ∃ t : Fin cfg0.N, (cfg0.win 3).flush t = true ∧ i ∈ ((cfg0.win 3).blk t).view.set := by
  exact fun i => cover3_idx i

/-- The host's reshape [4, 1, 8192] → [4, 8192] of an array that does not depend on its middle coordinate. -/
theorem reshape_mid (g : FVec Ideal SRes .f32) :
    shapeCast S4x8192 (fun i : S4x1x8192.Idx => g (ix2 (i 0) (i 2))) shapeCasts_S4x1x8192_S4x8192 = g := by
  funext j
  obtain ⟨b, n, rfl⟩ : ∃ (b : Fin 4) (n : Fin 8192), j = ix2 b n := ⟨j 0, j 1, eq_ix2 j⟩
  refine (shapeCast_apply _ shapeCasts_S4x1x8192_S4x8192 (ix2 b n) (ix3 b (0 : Fin 1) n) ?_).trans rfl
  rw [Shape.rowMajor_val_three, Shape.rowMajor_val_two]
  show (b.val * 1 + 0) * 8192 + n.val = b.val * 8192 + n.val
  omega

end Cert.KernelIdeal.Blocks

end
-- ==== Proof.KI.Minima.lean ====
/-
  The running minima, point by point.

  After the body at point t = 32·b + 8·i + j the accumulator holds, at row r of the row tile, the infimum of the
  distance table over the columns of the column tiles 0 … j done so far in this row tile,
      acc r = inf { dist b (2048·i + r) m : m < (j + 1)·1024 },
  and the resident column-minimum block holds, at column m, the infimum over the rows of the row tiles done so far
  for m's stretch s = m / 1024 — tiles 0 … i if s ≤ j, tiles 0 … i − 1 otherwise, that is ((t mod 32) + 8 − s) / 8
  tiles —,
      col m = inf { dist b n m : n < ((t mod 32 + 8 − s) / 8)·2048 }.
  Both by induction over the points: a reset starts from +∞, the infimum of no index; every other point folds one
  more stretch of 1024 columns (one more tile of 2048 rows) into what the point before left, and the infimum below
  (k + 1)·K is the minimum of the infimum below k·K and the infimum over the k-th stretch (`inf_lt_succ`). At the last
  column tile the accumulator has seen all 8192 columns and is the row infimum; after the last point of a batch the
  block has seen all 8192 rows and is the column infimum.
-/
import proofs.«401845_j56616258895922_3_alg».proof.Proof.KI.Blocks

set_option maxRecDepth 16384

noncomputable section

namespace Cert.KernelIdeal.Minima

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.KernelIdeal.Tile Cert.KernelIdeal.Blocks Cert.Chamfer

variable (m : (ℓ : Loc nD τ sig) → Buf (Elt Ideal) ℓ) (c : Dev nD)

/-- The infimum of row `row` of batch `b` of the table over the columns below `cols`. -/
def rowInf (b : Fin 4) (row : Fin 8192) (cols : ℕ) : EReal :=
  (Finset.univ.filter fun mm : Fin 8192 => mm.val < cols).inf fun mm => dist (cloudX m c) (cloudY m c) b row mm

/-- The infimum of column `col` of batch `b` of the table over the rows below `rows`. -/
def colInf (b : Fin 4) (col : Fin 8192) (rows : ℕ) : EReal :=
  (Finset.univ.filter fun n : Fin 8192 => n.val < rows).inf fun n => dist (cloudX m c) (cloudY m c) b n col

theorem rowInf_zero (b : Fin 4) (row : Fin 8192) : rowInf m c b row (0 * 1024) = ⊤ := inf_lt_zero 1024 _
theorem colInf_zero (b : Fin 4) (col : Fin 8192) : colInf m c b col (0 * 2048) = ⊤ := inf_lt_zero 2048 _

/-- One more column tile. -/
theorem rowInf_succ (b : Fin 4) (row : Fin 8192) (j : ℕ) (hj : (j + 1) * 1024 ≤ 8192) :
    rowInf m c b row ((j + 1) * 1024)
      = min (rowInf m c b row (j * 1024))
          (Finset.univ.inf fun k : Fin 1024 => dist (cloudX m c) (cloudY m c) b row ⟨j * 1024 + k.val, stretch_lt hj k⟩) :=
  inf_lt_succ 1024 j hj _

/-- One more row tile. -/
theorem colInf_succ (b : Fin 4) (col : Fin 8192) (i : ℕ) (hi : (i + 1) * 2048 ≤ 8192) :
    colInf m c b col ((i + 1) * 2048)
      = min (colInf m c b col (i * 2048))
          (Finset.univ.inf fun r : Fin 2048 => dist (cloudX m c) (cloudY m c) b ⟨i * 2048 + r.val, stretch_lt hi r⟩ col) :=
  inf_lt_succ 2048 i hi _

theorem rowInf_all (b : Fin 4) (row : Fin 8192) : rowInf m c b row 8192 = rowMin (cloudX m c) (cloudY m c) (ix2 b row) :=
  inf_lt_all _
theorem colInf_all (b : Fin 4) (col : Fin 8192) : colInf m c b col 8192 = colMin (cloudX m c) (cloudY m c) (ix2 b col) :=
  inf_lt_all _

/-! ## The accumulator -/

/-- What a point's body makes of the accumulator's old value at row `r`. -/
theorem acc_step (t : Fin cfg0.N) (a : Vec Ideal S1x1x2048 .f32) (r : Fin 2048) :
    k0_pay1 (F := Ideal) (k0_pay6 (iblk m c 0 t) (iblk m c 1 t) a) (ix3 0 0 r)
      = min (a (ix3 0 0 r)) (Finset.univ.inf fun k : Fin 1024 => dist (cloudX m c) (cloudY m c) (bat t) (rowIx t r) (colIx t k)) := by
  rw [pay1_apply, pay6_apply]
  simp only [tileDist_eq]

theorem rowInf_congr {b b' : Fin 4} {row row' : Fin 8192} {cols cols' : ℕ} (hb : b = b') (hr : row = row') (hc : cols = cols') :
    rowInf m c b row cols = rowInf m c b' row' cols' := by subst hb hr hc; rfl
theorem colInf_congr {b b' : Fin 4} {col : Fin 8192} {rows rows' : ℕ} (hb : b = b') (hc : rows = rows') :
    colInf m c b col rows = colInf m c b' col rows' := by subst hb hc; rfl

/-- A reset point (first column tile of a row tile): the first stretch of columns. -/
theorem acc_reset (t : Fin cfg0.N) (h1 : t.val % 8 = 0) (r : Fin 2048) (A : Vec Ideal S1x1x2048 .f32)
    (hA : A = k0_pay1 (k0_pay6 (iblk m c 0 t) (iblk m c 1 t) (k0_pay4 (F := Ideal)))) :
    A (ix3 0 0 r) = rowInf m c (bat t) (rowIx t r) ((t.val % 8 + 1) * 1024) := by
  rw [hA, acc_step, pay4_apply, h1, rowInf_succ m c _ _ 0 (by norm_num), rowInf_zero]
  refine congrArg (min ⊤) (congrArg _ (funext fun k => ?_))
  exact congrArg _ (Fin.ext (by simp only [colIx]; omega))

/-- Any other point: one more stretch over what the point before left. -/
theorem acc_fold (t : Fin cfg0.N) (r : Fin 2048) (A xs : Vec Ideal S1x1x2048 .f32)
    (hA : A = k0_pay1 (k0_pay6 (iblk m c 0 t) (iblk m c 1 t) xs))
    (ih : xs (ix3 0 0 r) = rowInf m c (bat t) (rowIx t r) ((t.val % 8) * 1024)) :
    A (ix3 0 0 r) = rowInf m c (bat t) (rowIx t r) ((t.val % 8 + 1) * 1024) := by
  have hN := t.isLt
  rw [hA, acc_step, ih, rowInf_succ m c _ _ (t.val % 8) (by omega)]
  rfl

/-- THE ACCUMULATOR after point `n`: the row infimum over the columns of the column tiles done so far. -/
theorem acc_inv : ∀ (n : ℕ) (hn : n < cfg0.N) (r : Fin 2048),
    (stAt m c n hn).2 (ix3 0 0 r) = rowInf m c (bat ⟨n, hn⟩) (rowIx ⟨n, hn⟩ r) ((n % 8 + 1) * 1024)
  | 0, hn, r => acc_reset m c ⟨0, hn⟩ rfl r _ (by
      rw [stAt_batch m c ⟨0, hn⟩ rfl rfl (show ¬(0 % 8 = 7) from by decide)]; exact batchOut_acc m c ⟨0, hn⟩ rfl rfl (show ¬(0 % 8 = 7) from by decide))
  | n + 1, hn, r => by
    have hN : n + 1 < 128 := lt_of_lt_of_eq hn N128
    by_cases h0 : (n + 1) % 32 = 0
    · have h1 : (n + 1) % 8 = 0 := by omega
      have h2 : ¬(n + 1) % 8 = 7 := by omega
      exact acc_reset m c ⟨n + 1, hn⟩ h1 r _ (by
        rw [stAt_batch m c ⟨n + 1, hn⟩ h0 h1 h2]; exact batchOut_acc m c ⟨n + 1, hn⟩ h0 h1 h2)
    · by_cases h1 : (n + 1) % 8 = 0
      · have h2 : ¬(n + 1) % 8 = 7 := by omega
        exact acc_reset m c ⟨n + 1, hn⟩ h1 r _ (by
          rw [stAt_rows m c ⟨n + 1, hn⟩ h0 h1 h2]; exact rowsOut_acc m c ⟨n + 1, hn⟩ h0 h1 h2 _)
      · have ih : (stAt m c n (Nat.lt_of_succ_lt hn)).2 (ix3 0 0 r)
            = rowInf m c (bat ⟨n + 1, hn⟩) (rowIx ⟨n + 1, hn⟩ r) (((n + 1) % 8) * 1024) :=
          (acc_inv n (Nat.lt_of_succ_lt hn) r).trans (rowInf_congr m c
            (Fin.ext (by show n / 32 = (n + 1) / 32; omega))
            (Fin.ext (by show ((n / 8) % 4) * 2048 + r.val = (((n + 1) / 8) % 4) * 2048 + r.val; omega))
            (by omega))
        by_cases h2 : (n + 1) % 8 = 7
        · exact acc_fold m c ⟨n + 1, hn⟩ r _ _ (by
            rw [stAt_last m c ⟨n + 1, hn⟩ h0 h1 h2]; exact lastOut_acc m c ⟨n + 1, hn⟩ h0 h1 h2 _ _) ih
        · exact acc_fold m c ⟨n + 1, hn⟩ r _ _ (by
            rw [stAt_mid m c ⟨n + 1, hn⟩ h0 h1 h2]; exact midOut_acc m c ⟨n + 1, hn⟩ h0 h1 h2 _ _) ih

/-! ## The column-minimum block -/

/-- What a point's body makes of the block's old value at column `k` of the point's stretch. -/
theorem col_step (t : Fin cfg0.N) (o : Vec Ideal S1x1x8192 .f32) (k : Fin 1024) :
    k0_pay2 (F := Ideal) (k0_pay5 (iblk m c 0 t) (iblk m c 1 t)) (View.ld o (stretch (grid0.coords t))) (ix3 0 0 k)
      = min (o (ix3 0 0 (colIx t k)))
          (Finset.univ.inf fun r : Fin 2048 => dist (cloudX m c) (cloudY m c) (bat t) (rowIx t r) (colIx t k)) := by
  rw [pay2_apply, ld_stretch]
  simp only [pay5_apply, tileDist_eq]

/-- A column is in the point's stretch or not; in it, it is the stretch's `k`-th. -/
theorem col_cases (t : Fin cfg0.N) (mc : Fin 8192) :
    (∃ k : Fin 1024, mc = colIx t k) ∨ ((ix3 0 0 mc : S1x1x8192.Idx) ∉ (stretch (grid0.coords t)).set ∧ ¬mc.val / 1024 = t.val % 8) := by
  by_cases hin : mc.val / 1024 = t.val % 8
  · exact .inl ⟨⟨mc.val - (t.val % 8) * 1024, by have := mc.isLt; omega⟩, Fin.ext (by simp only [colIx]; omega)⟩
  · exact .inr ⟨fun h => hin ((mem_stretch_iff t mc).mp h), hin⟩

/-- The first point of a batch: the first row tile in stretch 0, nothing elsewhere. -/
theorem col_first (t : Fin cfg0.N) (h0 : t.val % 32 = 0) (B : Vec Ideal S1x1x8192 .f32)
    (hin : ∀ x : S1x1x1024.Idx, B ((stretch (grid0.coords t)).emb x)
      = k0_pay2 (k0_pay5 (iblk m c 0 t) (iblk m c 1 t)) (View.ld (k0_pay3 (F := Ideal)) (stretch (grid0.coords t))) x)
    (hout : ∀ y : S1x1x8192.Idx, y ∉ (stretch (grid0.coords t)).set → B y = k0_pay3 (F := Ideal) y)
    (mc : Fin 8192) :
    B (ix3 0 0 mc) = colInf m c (bat t) mc (((t.val % 32 + 8 - mc.val / 1024) / 8) * 2048) := by
  have hmc := mc.isLt
  rcases col_cases t mc with ⟨k, rfl⟩ | ⟨hnot, hne⟩
  · have hs : (colIx t k).val / 1024 = t.val % 8 := by simp only [colIx]; have := k.isLt; omega
    have e2 : (t.val % 32 + 8 - (colIx t k).val / 1024) / 8 = 0 + 1 := by rw [hs]; omega
    rw [← stretch_emb t k, hin, col_step, pay3_apply, e2, colInf_succ m c _ _ 0 (by norm_num), colInf_zero]
    refine congrArg (min ⊤) (congrArg _ (funext fun r => ?_))
    exact congrArg (fun n => dist (cloudX m c) (cloudY m c) (bat t) n (colIx t k)) (Fin.ext (by simp only [rowIx]; omega))
  · have e2 : (t.val % 32 + 8 - mc.val / 1024) / 8 = 0 := by omega
    rw [hout _ hnot, pay3_apply, e2]
    exact (colInf_zero m c _ _).symm

/-- Any other point: one more row tile in the point's stretch, nothing new elsewhere. -/
theorem col_next (t : Fin cfg0.N) (h0 : ¬t.val % 32 = 0) (B xo : Vec Ideal S1x1x8192 .f32)
    (hin : ∀ x : S1x1x1024.Idx, B ((stretch (grid0.coords t)).emb x)
      = k0_pay2 (k0_pay5 (iblk m c 0 t) (iblk m c 1 t)) (View.ld xo (stretch (grid0.coords t))) x)
    (hout : ∀ y : S1x1x8192.Idx, y ∉ (stretch (grid0.coords t)).set → B y = xo y)
    (ih : ∀ mc : Fin 8192, xo (ix3 0 0 mc) = colInf m c (bat t) mc ((((t.val - 1) % 32 + 8 - mc.val / 1024) / 8) * 2048))
    (mc : Fin 8192) :
    B (ix3 0 0 mc) = colInf m c (bat t) mc (((t.val % 32 + 8 - mc.val / 1024) / 8) * 2048) := by
  have hmc := mc.isLt
  have hN : t.val < 128 := lt_of_lt_of_eq t.isLt N128
  rcases col_cases t mc with ⟨k, rfl⟩ | ⟨hnot, hne⟩
  · have hs : (colIx t k).val / 1024 = t.val % 8 := by simp only [colIx]; have := k.isLt; omega
    have e1 : ((t.val - 1) % 32 + 8 - (colIx t k).val / 1024) / 8 = (t.val / 8) % 4 := by rw [hs]; omega
    have e2 : (t.val % 32 + 8 - (colIx t k).val / 1024) / 8 = (t.val / 8) % 4 + 1 := by rw [hs]; omega
    rw [← stretch_emb t k, hin, col_step, ih, e1, e2, colInf_succ m c _ _ ((t.val / 8) % 4) (by omega)]
    rfl
  · have e : ((t.val - 1) % 32 + 8 - mc.val / 1024) / 8 = (t.val % 32 + 8 - mc.val / 1024) / 8 := by omega
    rw [hout _ hnot, ih, e]

/-- THE COLUMN-MINIMUM BLOCK after point `n`: per column, the infimum over the rows of the row tiles done so far for
    the column's stretch. -/
theorem col_inv : ∀ (n : ℕ) (hn : n < cfg0.N) (mc : Fin 8192),
    (stAt m c n hn).1 (ix3 0 0 mc) = colInf m c (bat ⟨n, hn⟩) mc (((n % 32 + 8 - mc.val / 1024) / 8) * 2048)
  | 0, hn, mc => by
    have hz : ¬(0 % 8 = 7) := by decide
    refine col_first m c ⟨0, hn⟩ rfl _ ?_ ?_ mc
    · intro x; rw [stAt_batch m c ⟨0, hn⟩ rfl rfl hz]; exact batchOut_col_in m c ⟨0, hn⟩ rfl rfl hz x
    · intro y hy; rw [stAt_batch m c ⟨0, hn⟩ rfl rfl hz]; exact batchOut_col_out m c ⟨0, hn⟩ rfl rfl hz y hy
  | n + 1, hn, mc => by
    have hN : n + 1 < 128 := lt_of_lt_of_eq hn N128
    by_cases h0 : (n + 1) % 32 = 0
    · have h1 : (n + 1) % 8 = 0 := by omega
      have h2 : ¬(n + 1) % 8 = 7 := by omega
      refine col_first m c ⟨n + 1, hn⟩ h0 _ ?_ ?_ mc
      · intro x; rw [stAt_batch m c ⟨n + 1, hn⟩ h0 h1 h2]; exact batchOut_col_in m c ⟨n + 1, hn⟩ h0 h1 h2 x
      · intro y hy; rw [stAt_batch m c ⟨n + 1, hn⟩ h0 h1 h2]; exact batchOut_col_out m c ⟨n + 1, hn⟩ h0 h1 h2 y hy
    · have ih : ∀ mc : Fin 8192, (stAt m c n (Nat.lt_of_succ_lt hn)).1 (ix3 0 0 mc)
          = colInf m c (bat ⟨n + 1, hn⟩) mc ((((n + 1 - 1) % 32 + 8 - mc.val / 1024) / 8) * 2048) := fun mc =>
        (col_inv n (Nat.lt_of_succ_lt hn) mc).trans (colInf_congr m c
          (Fin.ext (by show n / 32 = (n + 1) / 32; omega)) (by rw [Nat.add_sub_cancel]))
      by_cases h1 : (n + 1) % 8 = 0
      · have h2 : ¬(n + 1) % 8 = 7 := by omega
        refine col_next m c ⟨n + 1, hn⟩ h0 _ _ ?_ ?_ ih mc
        · intro x; rw [stAt_rows m c ⟨n + 1, hn⟩ h0 h1 h2]; exact rowsOut_col_in m c ⟨n + 1, hn⟩ h0 h1 h2 _ x
        · intro y hy; rw [stAt_rows m c ⟨n + 1, hn⟩ h0 h1 h2]; exact rowsOut_col_out m c ⟨n + 1, hn⟩ h0 h1 h2 _ y hy
      · by_cases h2 : (n + 1) % 8 = 7
        · refine col_next m c ⟨n + 1, hn⟩ h0 _ _ ?_ ?_ ih mc
          · intro x; rw [stAt_last m c ⟨n + 1, hn⟩ h0 h1 h2]; exact lastOut_col_in m c ⟨n + 1, hn⟩ h0 h1 h2 _ _ x
          · intro y hy; rw [stAt_last m c ⟨n + 1, hn⟩ h0 h1 h2]; exact lastOut_col_out m c ⟨n + 1, hn⟩ h0 h1 h2 _ _ y hy
        · refine col_next m c ⟨n + 1, hn⟩ h0 _ _ ?_ ?_ ih mc
          · intro x; rw [stAt_mid m c ⟨n + 1, hn⟩ h0 h1 h2]; exact midOut_col_in m c ⟨n + 1, hn⟩ h0 h1 h2 _ _ x
          · intro y hy; rw [stAt_mid m c ⟨n + 1, hn⟩ h0 h1 h2]; exact midOut_col_out m c ⟨n + 1, hn⟩ h0 h1 h2 _ _ y hy

end Cert.KernelIdeal.Minima

end
-- ==== Proof.KI.Result.lean ====
/-
  What the region leaves in its two result arrays.

  The row-minimum array [4, 1, 8192] is written back block (b, 0, i) at the last column tile of row tile i of batch
  b, when the accumulator — copied into the block's buffer by that point's body — has folded all eight column tiles:
  it is the row infimum over all 8192 columns. The column-minimum array is written back block (b, 0, 0) after the
  last point of batch b, when every column's stretch has folded all four row tiles: the column infimum over all 8192
  rows. The blocks cover both arrays, so each array ends as one function of the two clouds: `rowMin` and `colMin`
  with a unit middle axis.
-/
import proofs.«401845_j56616258895922_3_alg».proof.Proof.KI.Minima

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.KernelIdeal.Tile Cert.KernelIdeal.Blocks Cert.KernelIdeal.Minima Cert.Chamfer

variable (m : (ℓ : Loc nD τ sig) → Buf (Elt Ideal) ℓ) (c : Dev nD)

/-- The row-minimum array as a whole: the row infima, the middle axis a unit. -/
def rowArr : S4x1x8192.Idx → EReal := fun i => rowMin (cloudX m c) (cloudY m c) (ix2 (i 0) (i 2))
/-- The column-minimum array as a whole. -/
def colArr : S4x1x8192.Idx → EReal := fun i => colMin (cloudX m c) (cloudY m c) (ix2 (i 0) (i 2))

/-- Before a point that is not a first column tile, the accumulator holds the row infimum over the column tiles before
    the point's. -/
theorem acc_prev (t : Fin cfg0.N) (h1 : ¬t.val % 8 = 0) (r : Fin 2048) :
    (stAt m c (t.val - 1) (Nat.lt_of_le_of_lt (Nat.sub_le _ _) t.isLt)).2 (ix3 0 0 r)
      = rowInf m c (bat t) (rowIx t r) ((t.val % 8) * 1024) := by
  obtain ⟨n, hn⟩ := t
  cases n with
  | zero => exact absurd (Nat.zero_mod _) h1
  | succ n =>
    have hN : n + 1 < 128 := lt_of_lt_of_eq hn N128
    have h1' : ¬(n + 1) % 8 = 0 := h1
    exact (acc_inv m c n (Nat.lt_of_succ_lt hn) r).trans (rowInf_congr m c
      (Fin.ext (by show n / 32 = (n + 1) / 32; omega))
      (Fin.ext (by show ((n / 8) % 4) * 2048 + r.val = (((n + 1) / 8) % 4) * 2048 + r.val; omega))
      (by show (n % 8 + 1) * 1024 = ((n + 1) % 8) * 1024; omega))

/-- Every index of a block of shape [1, 1, n] is (0, 0, k). -/
theorem idx_unit2 {n : Nat} (y : (⟨3, ![1, 1, n]⟩ : Shape).Idx) : ∃ k : Fin n, y = ix3 0 0 k :=
  ⟨y 2, funext fun d => by
    match d with
    | ⟨0, _⟩ => exact Fin.ext (Nat.lt_one_iff.mp (y 0).isLt)
    | ⟨1, _⟩ => exact Fin.ext (Nat.lt_one_iff.mp (y 1).isLt)
    | ⟨2, _⟩ => rfl⟩

/-- What a last column tile writes back is its block of the row infima. -/
theorem flushed2 (t : Fin cfg0.N) (hf : (cfg0.win 2).flush t = true) :
    (dats m 0 c).flushed 2 t = ((cfg0.win 2).blk t).view.read (Elt Ideal) (rowArr m c) := by
  have hN : t.val < 128 := lt_of_lt_of_eq t.isLt N128
  have h2 : t.val % 8 = 7 := (flush0_2 t).mp hf
  have h0 : ¬t.val % 32 = 0 := by omega
  have h1 : ¬t.val % 8 = 0 := by omega
  show (cfg0.win 2).cut (grid0.coords t) ((dats m 0 c).after 2 t) = _
  rw [after2, rowAt_last m c t h0 h1 h2]
  funext y
  obtain ⟨r, rfl⟩ := idx_unit2 y
  refine Eq.trans ?_ (blk2_read t (rowArr m c) r).symm
  refine (acc_fold m c t r _ _ (lastRow_eq m c t h0 h1 h2 _ _) (acc_prev m c t h1 r)).trans ?_
  rw [h2]
  exact rowInf_all m c _ _

/-- What the last point of a batch writes back is the batch's block of the column infima. -/
theorem flushed3 (t : Fin cfg0.N) (hf : (cfg0.win 3).flush t = true) :
    (dats m 0 c).flushed 3 t = ((cfg0.win 3).blk t).view.read (Elt Ideal) (colArr m c) := by
  have hN : t.val < 128 := lt_of_lt_of_eq t.isLt N128
  have h31 : t.val % 32 = 31 := (flush0_3 t).mp hf
  show (cfg0.win 3).cut (grid0.coords t) ((dats m 0 c).after 3 t) = _
  rw [after3]
  funext y
  obtain ⟨mc, rfl⟩ := idx_unit2 y
  refine Eq.trans ?_ (blk3_read t (colArr m c) mc).symm
  have hmc := mc.isLt
  refine (col_inv m c t.val t.isLt mc).trans ?_
  rw [show ((t.val % 32 + 8 - mc.val / 1024) / 8) * 2048 = 8192 from by omega]
  exact colInf_all m c _ _

/-- THE ROW-MINIMUM ARRAY after the region. -/
theorem final2 : (dats m 0 c).arrAt 2 cfg0.N = rowArr m c :=
  (dats m 0 c).arrAt_eq_of_cover 2 (rowArr m c) (flushed2 m c) (cover2 c)

/-- THE COLUMN-MINIMUM ARRAY after the region. -/
theorem final3 : (dats m 0 c).arrAt 3 cfg0.N = colArr m c :=
  (dats m 0 c).arrAt_eq_of_cover 3 (colArr m c) (flushed3 m c) (cover3 c)

end Cert.KernelIdeal.Result

end
-- ==== Proof.RefMin.lean ====
/-
  The reference's two reductions are the row and column infima of the squared-distance table.

  The reference forms the table  dist b n m = (|x b n|² + |y b m|²) - 2 · ⟨x b n, y b m⟩  as a [4, 8192, 8192] array
  (each squared norm a host sum from 0 over the three channels, the inner product a `dot_general` contracting the
  channel) and reduces it with `min` from +∞ over its last axis (per point of x) and over its middle axis (per point
  of y). On the extended reals a `min`-reduction from +∞ over one axis is the infimum over that axis's coordinates,
  and 0 + s = s, so the two results are `rowMin` and `colMin`.
-/
import proofs.«401845_j56616258895922_3_alg».proof.Proof.RefRead
import proofs.«401845_j56616258895922_3_alg».proof.Proof.Chamfer
import Idealize.ShloMosaic.PureOps.Ideal.Laws
import Idealize.ShloMosaic.Lib.ValueIdx

set_option maxRecDepth 16384

noncomputable section

namespace Cert.ReferenceIdeal.RefMin

open Idealize.ShloMosaic Idealize.ShloMosaic.ValueIdx Cert.ReferenceIdeal Cert.ReferenceIdeal.Gen Cert.ReferenceIdeal.ReadP Cert.Chamfer

/-! ## The table's operand indices at (b, n, m)

Each squared norm is broadcast into the table along the axis it does not depend on, and the inner product contracts the
channel: read back from the table's index (b, n, m), the x-side operands sit at (b, n, k) and the y-side ones at
(b, m, k), k the channel. -/

/-- The squared norm of x, broadcast along the last axis, reads x at (b, n, k). -/
theorem sq_idx_x (b : Fin 4) (n m : Fin 8192) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared norm of y, broadcast along the middle axis, reads y at (b, m, k). -/
theorem sq_idx_y (b : Fin 4) (n m : Fin 8192) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The inner product's left operand at (b, n, m) and channel k is x at (b, n, k). -/
theorem dot_idx_l (b : Fin 4) (n m : Fin 8192) (k : Fin 3) :
    lidx_main_v4 (ix3 b n m) k = ix3 b n k :=
  funext fun a => Fin.ext (by match a with | ⟨0, _⟩ => rfl | ⟨1, _⟩ => rfl | ⟨2, _⟩ => rfl)

/-- The inner product's right operand at (b, n, m) and channel k is y at (b, m, k). -/
theorem dot_idx_r (b : Fin 4) (n m : Fin 8192) (k : Fin 3) :
    ridx_main_v4 (ix3 b n m) k = ix3 b m k :=
  funext fun a => Fin.ext (by match a with | ⟨0, _⟩ => rfl | ⟨1, _⟩ => rfl | ⟨2, _⟩ => rfl)

/-- The reference's table entry is `dist`. -/
theorem table_apply (x y : (⟨S4x8192x3, .f32⟩ : BufTy).Contents (Elt Ideal)) (b : Fin 4) (n m : Fin 8192) :
    val_main_v12 (F := Ideal) x y (ix3 b n m) = dist x y b n m := by
  rw [val_main_v12_apply, val_main_v9_apply, val_main_v11_apply, val_main_v7_apply, val_main_v8_apply,
    val_main_v5_apply, val_main_v6_apply, val_main_v1_apply, val_main_v3_apply, val_main_v10_apply,
    val_main_v4_apply]
  simp only [sq_idx_x, sq_idx_y, dot_idx_l, dot_idx_r, val_main_v0_apply, val_main_v2_apply, val_main_cst_apply,
    val_main_cst_0_apply, val_main_cst_1_apply, Ideal.mulf_def, Ideal.addf_def, Ideal.subf_def, Ideal.ofBits_def,
    Ideal.ofBits_zero_f32, zero_add]
  unfold Cert.Chamfer.dist Cert.Chamfer.sqn Cert.Chamfer.cross
  rfl

/-! ## The two reductions

Dropping the last (resp. the middle) axis of [4, 8192, 8192] leaves [4, 8192]; the table index over the result index
(b, n) with coordinate k on the dropped axis is (b, n, k), resp. (b, k, n). A fold of `min` from +∞ over all k is the
infimum over k. -/

/-- Dropping the last axis of the table's shape leaves the result's shape. -/
theorem red_last : S4x8192x8192.Reduces [2] S4x8192 := by decide
/-- Dropping the middle axis of the table's shape leaves the result's shape. -/
theorem red_mid : S4x8192x8192.Reduces [1] S4x8192 := by decide

/-- Over (b, n), coordinate k on the dropped last axis: the table index (b, n, k). -/
theorem lift_last (b : Fin 4) (n : Fin 8192) (k : Fin 8192) :
    red_last.lift (ix2 b n) k = ix3 b n k :=
  funext fun a => Fin.ext (by match a with | ⟨0, _⟩ => rfl | ⟨1, _⟩ => rfl | ⟨2, _⟩ => rfl)

/-- Over (b, m), coordinate k on the dropped middle axis: the table index (b, k, m). -/
theorem lift_mid (b : Fin 4) (m : Fin 8192) (k : Fin 8192) :
    red_mid.lift (ix2 b m) k = ix3 b k m :=
  funext fun a => Fin.ext (by match a with | ⟨0, _⟩ => rfl | ⟨1, _⟩ => rfl | ⟨2, _⟩ => rfl)

/-- A fold of the minimum from the word of +∞ over every index of a finite range is the infimum of the family. -/
theorem fold_minimumf_posInf {N : Nat} (c : Ideal .f32) (hc : c = Ideal.ofBits .f32 0x7F800000#32) (f : Fin N → EReal) :
    Finset.fold (FloatOps.minimumf (F := Ideal) (φ := .f32)) c f Finset.univ = Finset.univ.inf f := by
  rw [hc, posInf]
  exact fold_min_top _ _

/-- Its reduction over the last axis is the row infimum. -/
theorem rowMin_eq (x y : (⟨S4x8192x3, .f32⟩ : BufTy).Contents (Elt Ideal)) :
    val_main_v13 (F := Ideal) x y = rowMin x y := by
  funext i
  obtain ⟨b, n, rfl⟩ : ∃ (b : Fin 4) (n : Fin 8192), i = ix2 b n := ⟨i 0, i 1, eq_ix2 i⟩
  unfold val_main_v13
  -- the table along row (b, n) is m ↦ dist b n m
  have hf : (val_main_v12 (F := Ideal) x y ∘ red_last.lift (ix2 b n))
      = fun k : Fin 8192 => Cert.Chamfer.dist x y b n k :=
    funext fun k => (congrArg (val_main_v12 (F := Ideal) x y) (lift_last b n k)).trans (table_apply x y b n k)
  generalize val_main_v12 (F := Ideal) x y = T at hf ⊢
  refine (Host.reduce_eq_fold_single (α := Ideal .f32) FloatOps.minimumf T _ reducesTo_S4x8192x8192_S4x8192_d2
    red_last h_S_ (ix2 b n)).trans ?_
  rw [hf]
  exact fold_minimumf_posInf _ (val_main_cst_2_apply (Shape.Idx.first h_S_)) _

/-- Its reduction over the middle axis is the column infimum. -/
theorem colMin_eq (x y : (⟨S4x8192x3, .f32⟩ : BufTy).Contents (Elt Ideal)) :
    val_main_v14 (F := Ideal) x y = colMin x y := by
  funext i
  obtain ⟨b, m, rfl⟩ : ∃ (b : Fin 4) (m : Fin 8192), i = ix2 b m := ⟨i 0, i 1, eq_ix2 i⟩
  unfold val_main_v14
  -- the table along column (b, m) is n ↦ dist b n m
  have hf : (val_main_v12 (F := Ideal) x y ∘ red_mid.lift (ix2 b m))
      = fun k : Fin 8192 => Cert.Chamfer.dist x y b k m :=
    funext fun k => (congrArg (val_main_v12 (F := Ideal) x y) (lift_mid b m k)).trans (table_apply x y b k m)
  generalize val_main_v12 (F := Ideal) x y = T at hf ⊢
  refine (Host.reduce_eq_fold_single (α := Ideal .f32) FloatOps.minimumf T _ reducesTo_S4x8192x8192_S4x8192_d1
    red_mid h_S_ (ix2 b m)).trans ?_
  rw [hf]
  exact fold_minimumf_posInf _ (val_main_cst_3_apply (Shape.Idx.first h_S_)) _

end Cert.ReferenceIdeal.RefMin

end
-- ==== Proof.RefTail.lean ====
/-
  The host operations both programs apply to the two families of minima, as one function.

  Each family d (the row minima, the column minima; [4, 8192]) is thresholded — an entry at most `th` becomes 0 — and
  averaged over its 8192 points: `half d th = (0 + Σ_n (if d n ≤ th then 0 else d n)) / 8192`, per batch; the result is
  the sum of the two halves. The reference applies exactly these operations to its two `min`-reductions, so its result
  is `tail` of them, and by RefMin.lean of `rowMin` and `colMin`. Nothing here opens an operation: the kernel's
  program applies the same ones.
-/
import proofs.«401845_j56616258895922_3_alg».proof.Proof.RefRead
import proofs.«401845_j56616258895922_3_alg».proof.Proof.RefMin

set_option maxRecDepth 16384

noncomputable section

namespace Cert.ReferenceIdeal.Tail

open Idealize.ShloMosaic Idealize.ShloMosaic.TcCoe Idealize.SL.Sem Idealize.ShloMosaic.StableHlo
open Cert.ReferenceIdeal Cert.ReferenceIdeal.Gen Cert.ReferenceIdeal.ReadP

variable {F : FTy → Type} [FloatOps F]

/-- The thresholded mean of one family of minima. -/
def half (d : (⟨S4x8192, .f32⟩ : BufTy).Contents (Elt F)) (th : (⟨S_, .f32⟩ : BufTy).Contents (Elt F)) : (⟨S4, .f32⟩ : BufTy).Contents (Elt F) :=
  Host.divf
    (Host.reduceAdd
      (select (cmpf .ole d (broadcastInDim S4x8192 ![] bcast_S_S4x8192 th))
        (broadcastInDim S4x8192 ![] bcast_S_S4x8192 (constant S_ .f32 0x00000000#32)) d)
      (constant S_ .f32 0x00000000#32) reducesTo_S4x8192_S4_d1 h_S_)
    (broadcastInDim S4 ![] bcast_S_S4 (constant S_ .f32 0x46000000#32))

/-- The result from the two families. -/
def tail (d1 d2 : (⟨S4x8192, .f32⟩ : BufTy).Contents (Elt F)) (th : (⟨S_, .f32⟩ : BufTy).Contents (Elt F)) : (⟨S4, .f32⟩ : BufTy).Contents (Elt F) :=
  addf (half d1 th) (half d2 th)

/-- The reference's last stage is `tail` of its two reductions. -/
theorem stage_eq (x0 x1 : (⟨S4x8192x3, .f32⟩ : BufTy).Contents (Elt F)) (x2 : (⟨S_, .f32⟩ : BufTy).Contents (Elt F)) :
    val_main_v27 (F := F) x0 x1 x2 = tail (val_main_v13 (F := F) x0 x1) (val_main_v14 (F := F) x0 x1) x2 := by
  unfold val_main_v27 val_main_v23 val_main_v26 val_main_v21 val_main_v24 val_main_v17 val_main_v20 val_main_v16 val_main_v19
    val_main_v15 val_main_v18 val_main_call0_v0 val_main_call1_v0 val_main_cst_4 val_main_cst_5 val_main_cst_6 val_main_cst_8
    val_main_v22 val_main_v25 val_main_cst_7 val_main_cst_9 tail half
  generalize val_main_v13 (F := F) x0 x1 = d1
  generalize val_main_v14 (F := F) x0 x1 = d2
  rfl

/-- THE REFERENCE'S RESULT, at the extended reals: `tail` of the row and column infima of the distance table. -/
theorem result_eq (m : (ℓ : Loc nD τ sig) → Buf (Elt Ideal) ℓ) (c : Dev nD) :
    Cert.ReferenceIdeal.ValueP.res_main_v27 m c
      = tail (Cert.Chamfer.rowMin (m ((c.tc : Thread nD τ).loc main_arg0)) (m ((c.tc : Thread nD τ).loc main_arg1)))
          (Cert.Chamfer.colMin (m ((c.tc : Thread nD τ).loc main_arg0)) (m ((c.tc : Thread nD τ).loc main_arg1)))
          (m ((c.tc : Thread nD τ).loc main_arg2)) := by
  rw [val_main_v27_eq, stage_eq, Cert.ReferenceIdeal.RefMin.rowMin_eq, Cert.ReferenceIdeal.RefMin.colMin_eq]

end Cert.ReferenceIdeal.Tail

end
-- ==== Proof.KI.Final.lean ====
/-
  The kernel program's result.

  After the region the host reshapes the two result arrays [4, 1, 8192] to [4, 8192] and applies to them the same
  operations the reference applies to its two reductions (threshold against `th`, mean over the points, sum of the two
  means: `tail`). The arrays are the row and column infima with a unit middle axis (Result.lean), the reshape drops
  that axis, so the program's result is `tail` of `rowMin` and `colMin` of the two clouds — the reference's own.
-/
import proofs.«401845_j56616258895922_3_alg».proof.Proof.KI.Result
import proofs.«401845_j56616258895922_3_alg».proof.Proof.RefTail
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Body Cert.KernelIdeal.Blocks Cert.KernelIdeal.Result Cert.Chamfer

/-- The host operations after the region, from any buffer contents `W`: `tail` of the two reshaped arrays. -/
theorem host_tail {F : FTy → Type} [FloatOps F] (W : Valuation τ sig (Elt F)) :
    StableHlo.after (List.flatten [hostOps1, hostOps1_1, hostOps1_2, hostOps1_3, hostOps1_4]) W (Proc.devRef .tc main_v17)
      = Cert.ReferenceIdeal.Tail.tail (F := F)
          (shapeCast S4x8192 (W (Proc.devRef .tc main_v2_0)) shapeCasts_S4x1x8192_S4x8192)
          (shapeCast S4x8192 (W (Proc.devRef .tc main_v2_1)) shapeCasts_S4x1x8192_S4x8192)
          (W (Proc.devRef .tc main_arg2)) := by
  simp only [hostOps1, hostOps1_1, hostOps1_2, hostOps1_3, hostOps1_4, List.flatten_cons, List.flatten_nil, List.append_nil,
    List.cons_append, List.nil_append]
  after_results
  generalize W (Proc.devRef .tc main_v2_0) = a1
  generalize W (Proc.devRef .tc main_v2_1) = a2
  generalize W (Proc.devRef .tc main_arg2) = a3
  rfl

variable (m : (ℓ : Loc nD τ sig) → Buf (Elt Ideal) ℓ) (c : Dev nD)

/-- THE KERNEL PROGRAM'S RESULT, at the extended reals. -/
theorem result_eq :
    Pipeline.afterTail₀ cfgs (dats m) 0 (V0 m) [hostOps1, hostOps1_1, hostOps1_2, hostOps1_3, hostOps1_4] c main_v17
      = Cert.ReferenceIdeal.Tail.tail (rowMin (cloudX m c) (cloudY m c)) (colMin (cloudX m c) (cloudY m c))
          (m ((c.tc : Thread nD τ).loc main_arg2)) := by
  unfold Pipeline.afterTail₀
  generalize hW : Pipeline.withArrays (cfgs (0 : Fin 1)).spec c (V0 m c) (fun w => (dats m 0 c).arrAt w (cfgs (0 : Fin 1)).N) = W
  have e2 : W (Proc.devRef .tc main_v2_0) = rowArr m c := by
    subst hW; exact (Pipeline.withArrays_arr spec0 launch0.win.arr_inj c _ _ 2).trans (final2 m c)
  have e3 : W (Proc.devRef .tc main_v2_1) = colArr m c := by
    subst hW; exact (Pipeline.withArrays_arr spec0 launch0.win.arr_inj c _ _ 3).trans (final3 m c)
  have e4 : W (Proc.devRef .tc main_arg2) = m ((c.tc : Thread nD τ).loc main_arg2) := by
    subst hW
    exact (Pipeline.withArrays_of_ne _ c (V0 m c) _ main_arg2 (by exact (by decide : ∀ w, Pipeline.arrRef spec0 w ≠ main_arg2))).trans
      (V_main_arg2 m c)
  rw [host_tail, e2, e3, e4]
  unfold rowArr colArr
  rw [reshape_mid, reshape_mid]

end Cert.KernelIdeal.Final

end
-- ==== Proof.lean ====
/-
  The certificate of a bidirectional nearest-neighbour (chamfer) kernel against its jnp reference, over the extended
  reals.

  Both programs take two clouds x, y : [4, 8192, 3] and a threshold th, form the squared distance of every pair of
  points of a batch in the expanded form (|x_n|² + |y_m|²) − 2·⟨x_n, y_m⟩, take its minimum over m for every n and over
  n for every m, replace each minimum that is at most th by 0, and return the sum of the two means. The reference
  materialises the [4, 8192, 8192] table and reduces it twice. The kernel never does: one pallas_call on a 4 × 4 × 8
  grid computes each 2048 × 1024 tile of the table once (the inner product on the matrix unit, in a narrower float
  format, which on the extended reals is the identity) and folds it at once into a running row minimum (an accumulator
  reset at the first column tile of a row tile and written out at the last) and a running column minimum (a block
  resident for the whole batch, reset at the batch's first point). On the extended reals a `min` over all indices is
  the same in any order and any grouping, so both programs compute `tail (rowMin x y) (colMin x y) th` (Chamfer.lean,
  RefTail.lean): the reference by reading its two reductions (RefMin.lean), the kernel by induction over the grid's
  points on what its two carried buffers hold (KI/Minima.lean), over the body's stored values read entry by entry
  (KI/Tile.lean, KI/Pieces.lean, KI/Blocks.lean) and the pipeline's write-backs (KI/Result.lean, KI/Final.lean).
  No finiteness is used: every step is an identity of the extended reals.

  The three frames: the kernel's body is run case by case of its three branches on the grid coordinates (KI/Cases.lean,
  KI/Run*.lean), the four cases assembled into the body obligation of the pipeline's launch with the carried buffers'
  contents as proof data (KI/Data.lean), once for the idealized program and once, from the same text, for the
  word-level one (K/*.lean); the reference is a straight line of host operations. The idealization changed no
  operation, so `preserves` has nothing to state.
-/
import proofs.«401845_j56616258895922_3_alg».proof.Defs
import proofs.«401845_j56616258895922_3_alg».proof.Proof.Gen.Kernel
import proofs.«401845_j56616258895922_3_alg».proof.Proof.Gen.KernelIdeal
import proofs.«401845_j56616258895922_3_alg».proof.Proof.Gen.ReferenceIdeal
import proofs.«401845_j56616258895922_3_alg».proof.Proof.Gen.Pre_finite_inputs
import proofs.«401845_j56616258895922_3_alg».proof.Proof.K.Data
import proofs.«401845_j56616258895922_3_alg».proof.Proof.KI.Final
import proofs.«401845_j56616258895922_3_alg».proof.Proof.RefTail
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Body.frame (F := Bits) m ρ

/-- So does the idealized kernel; -/
theorem frame_ki : Cert.frame_KernelIdeal := fun m ρ _ => Cert.KernelIdeal.Body.frame (F := Ideal) m ρ

/-- and the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end at `tail (rowMin x y) (colMin x y) th` of the launched arguments. -/
theorem algebraic : Cert.algebraic_KernelIdeal_ReferenceIdeal := by
  intro m ρ m' ρ' _ hagree
  refine ⟨fun c => Cert.ReferenceIdeal.Tail.tail
      (Cert.Chamfer.rowMin (Cert.KernelIdeal.Blocks.cloudX m c) (Cert.KernelIdeal.Blocks.cloudY m c))
      (Cert.Chamfer.colMin (Cert.KernelIdeal.Blocks.cloudX m c) (Cert.KernelIdeal.Blocks.cloudY m c))
      (m ((c.tc : Thread Cert.KernelIdeal.nD Cert.KernelIdeal.τ).loc Cert.KernelIdeal.main_arg2)), ?_, ?_⟩
  · refine (θ_run Cert.KernelIdeal.defs _ _).mono (fun _ h c => ⟨?_, ?_, ?_, ?_⟩) (Cert.KernelIdeal.Body.run_main (F := Ideal) m ρ)
    · exact ((h c).2 Cert.KernelIdeal.main_v17 (Pipeline.mem_restRefs_of Cert.KernelIdeal.main_v17 (by decide) (by decide))).trans
        (Cert.KernelIdeal.Final.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Body.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Body.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Body.dats m) c)
  · refine (θ_run Cert.ReferenceIdeal.defs _ _).mono (fun _ h c => ⟨?_, (h c).2⟩)
      (Cert.ReferenceIdeal.ValueP.run (F := Ideal) m' ρ')
    rw [(h c).1, Cert.ReferenceIdeal.Tail.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
